-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x1024 : Shape := ⟨3, ![512, 128, 1024]⟩
abbrev S512 : Shape := ⟨1, ![512]⟩
abbrev S8x128 : Shape := ⟨2, ![8, 128]⟩
abbrev S_ : Shape := ⟨0, ![]⟩

class Facts : Prop where
  bcast_S_S512x128x1024 : S_.BroadcastsInDim S512x128x1024 (![] : Fin 0 → Fin S512x128x1024.rank)
  reducesTo_S512x128x1024_S_d0_1_2 : S512x128x1024.ReducesTo [0, 1, 2] S_
  h_S_ : 0 < S_.numel
  bcast_S_S8x128 : S_.BroadcastsInDim S8x128 (![] : Fin 0 → Fin S8x128.rank)
  reducesTo_S8x128_S_d0_1 : S8x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg1 : IVec S512 32) (main_v13 : IVec S_ 1) (main_v15 : IVec S512 1) (main_c_5 : IVec S_ 32) : IVec S_ 1 :=
  let main_v16 : IVec S512 32 := broadcastInDim S512 ![] bcast_S_S512 main_c_5
  let main_v17 : IVec S512 1 := cmpi .slt main_arg1 main_v16
  let main_v18 : IVec S512 1 := andi main_v15 main_v17
  let main_c_6 : IVec S_ 1 := constantI S_ 1 1#1
  let main_v19 : IVec S_ 1 := (fun x v => Host.reduce IntOp.andi x v reducesTo_S512_S_d0 h_S_) main_v18 main_c_6
  let main_v20 : IVec S_ 1 := andi main_v13 main_v19
  main_v20

def fn {F : FTy → Type} [FloatOps F] (main_arg0 : FVec F S512x128x1024 .f32) (main_arg1 : IVec S512 32) (main_arg2 : FVec F S8x128 .f32) (main_arg3 : FVec F S8x128 .f32) : IVec S_ 1 :=
  let main_v0 : FVec F S512x128x1024 .f32 := Host.absf main_arg0
  let main_cst : FVec F S_ .f32 := constant S_ .f32 0x7F800000#32
  let main_v1 : FVec F S512x128x1024 .f32 := broadcastInDim S512x128x1024 ![] bcast_S_S512x128x1024 main_cst
  let main_v2 : IVec S512x128x1024 1 := cmpf .olt main_v0 main_v1
  let main_c : IVec S_ 1 := constantI S_ 1 1#1
  let main_v3 : IVec S_ 1 := (fun x v => Host.reduce IntOp.andi x v reducesTo_S512x128x1024_S_d0_1_2 h_S_) main_v2 main_c
  let main_v4 : FVec F S8x128 .f32 := Host.absf main_arg2
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_c_4 : IVec S_ 32 := constantI S_ 32 0#32
  let main_v14 : IVec S512 32 := broadcastInDim S512 ![] bcast_S_S512 main_c_4
  let main_v15 : IVec S512 1 := cmpi .sge main_arg1 main_v14
  let main_c_5 : IVec S_ 32 := constantI S_ 32 8#32
  fn_part1 (F := F) main_arg1 main_v13 main_v15 main_c_5
-- ==== Kernel.lean ====
abbrev S512x128x1024 : Shape := ⟨3, ![512, 128, 1024]⟩
abbrev S512 : Shape := ⟨1, ![512]⟩
abbrev S8x128 : Shape := ⟨2, ![8, 128]⟩
abbrev S512x128 : Shape := ⟨2, ![512, 128]⟩
abbrev S16x128x1024 : Shape := ⟨3, ![16, 128, 1024]⟩
abbrev S16x128 : Shape := ⟨2, ![16, 128]⟩
abbrev S512x1 : Shape := ⟨2, ![512, 1]⟩
abbrev S1x8 : Shape := ⟨2, ![1, 8]⟩
abbrev S512x8 : Shape := ⟨2, ![512, 8]⟩
abbrev S_ : Shape := ⟨0, ![]⟩
abbrev S8 : Shape := ⟨1, ![8]⟩
abbrev S8x1 : Shape := ⟨2, ![8, 1]⟩
abbrev S1 : Shape := ⟨1, ![1]⟩
abbrev S1x1 : Shape := ⟨2, ![1, 1]⟩
abbrev S16x128x512 : Shape := ⟨3, ![16, 128, 512]⟩
abbrev S16x128x1 : Shape := ⟨3, ![16, 128, 1]⟩

abbrev nBuf : Space → Nat
  | .hbm => 88
  | .vmem => 14
  | .smem => 0
  | _ => 0

abbrev bufTy : (tb : Table) → Fin (tcTables nBuf tb) → BufTy
  | .hbm, ⟨0, _⟩ => ⟨S512x128x1024, .f32⟩
  | .hbm, ⟨1, _⟩ => ⟨S512, .i32⟩
  | .hbm, ⟨2, _⟩ => ⟨S8x128, .f32⟩
  | .hbm, ⟨3, _⟩ => ⟨S8x128, .f32⟩
  | .hbm, ⟨4, _⟩ => ⟨S512x128, .f32⟩
  | .hbm, ⟨5, _⟩ => ⟨S512x128, .f32⟩
  | .hbm, ⟨6, _⟩ => ⟨S512x1, .i32⟩
  | .hbm, ⟨7, _⟩ => ⟨S1x8, .i32⟩
  | .hbm, ⟨8, _⟩ => ⟨S512x8, .i32⟩
  | .hbm, ⟨9, _⟩ => ⟨S512x8, .i32⟩
  | .hbm, ⟨10, _⟩ => ⟨S512x8, .i1⟩
  | .hbm, ⟨11, _⟩ => ⟨S512x8, .f32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8x128, .f32⟩
  | .hbm, ⟨21, _⟩ => ⟨S8x128, .f32⟩
  | .hbm, ⟨22, _⟩ => ⟨S8x1, .f32⟩
  | .hbm, ⟨23, _⟩ => ⟨S8x128, .f32⟩
  | .hbm, ⟨24, _⟩ => ⟨S8x128, .f32⟩
  | .hbm, ⟨25, _⟩ => ⟨S8x1, .f32⟩
  | .hbm, ⟨26, _⟩ => ⟨S8x128, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S_, .f32⟩
  | .hbm, ⟨34, _⟩ => ⟨S8x128, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S8x128, .f32⟩
  | .hbm, ⟨39, _⟩ => ⟨S8x128, .f32⟩
  | .hbm, ⟨40, _⟩ => ⟨S8x128, .f32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S1, .i32⟩
  | .hbm, ⟨50, _⟩ => ⟨S_, .i32⟩
  | .hbm, ⟨51, _⟩ => ⟨S512x1, .i32⟩
  | .hbm, ⟨52, _⟩ => ⟨S512x1, .i1⟩
  | .hbm, ⟨53, _⟩ => ⟨S1x1, .i32⟩
  | .hbm, ⟨54, _⟩ => ⟨S512x1, .i32⟩
  | .hbm, ⟨55, _⟩ => ⟨S512x1, .i1⟩
  | .hbm, ⟨56, _⟩ => ⟨S512x1, .i1⟩
  | .hbm, ⟨57, _⟩ => ⟨S_, .i1⟩
  | .hbm, ⟨58, _⟩ => ⟨S512, .i1⟩
  | .hbm, ⟨59, _⟩ => ⟨S512x128, .f32⟩
  | .hbm, ⟨60, _⟩ => ⟨S512x128, .i1⟩
  | .hbm, ⟨61, _⟩ => ⟨S_, .f32⟩
  | .hbm, ⟨62, _⟩ => ⟨S512x128, .f32⟩
  | .hbm, ⟨63, _⟩ => ⟨S512x128, .f32⟩
  | .hbm, ⟨64, _⟩ => ⟨S_, .i32⟩
  | .hbm, ⟨65, _⟩ => ⟨S512, .i32⟩
  | .hbm, ⟨66, _⟩ => ⟨S512, .i1⟩
  | .hbm, ⟨67, _⟩ => ⟨S_, .i32⟩
  | .hbm, ⟨68, _⟩ => ⟨S512, .i32⟩
  | .hbm, ⟨69, _⟩ => ⟨S512, .i32⟩
  | .hbm, ⟨70, _⟩ => ⟨S512, .i32⟩
  | .hbm, ⟨71, _⟩ => ⟨S512x1, .i32⟩
  | .hbm, ⟨72, _⟩ => ⟨S1, .i32⟩
  | .hbm, ⟨73, _⟩ => ⟨S_, .i32⟩
  | .hbm, ⟨74, _⟩ => ⟨S512x1, .i32⟩
  | .hbm, ⟨75, _⟩ => ⟨S512x1, .i1⟩
  | .hbm, ⟨76, _⟩ => ⟨S1x1, .i32⟩
  | .hbm, ⟨77, _⟩ => ⟨S512x1, .i32⟩
  | .hbm, ⟨78, _⟩ => ⟨S512x1, .i1⟩
  | .hbm, ⟨79, _⟩ => ⟨S512x1, .i1⟩
  | .hbm, ⟨80, _⟩ => ⟨S_, .i1⟩
  | .hbm, ⟨81, _⟩ => ⟨S512, .i1⟩
  | .hbm, ⟨82, _⟩ => ⟨S512x128, .f32⟩
  | .hbm, ⟨83, _⟩ => ⟨S512x128, .i1⟩
  | .hbm, ⟨84, _⟩ => ⟨S_, .f32⟩
  | .hbm, ⟨85, _⟩ => ⟨S512x128, .f32⟩
  | .hbm, ⟨86, _⟩ => ⟨S512x128, .f32⟩
  | .hbm, ⟨87, _⟩ => ⟨S512x128x1024, .f32⟩
  | .local _ .vmem, ⟨0, _⟩ => ⟨S16x128x1024, .f32⟩
  | .local _ .vmem, ⟨1, _⟩ => ⟨S16x128x1024, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128x512, .f32⟩
  | .local _ .vmem, ⟨7, _⟩ => ⟨S16x128x512, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128x512, .f32⟩
  | .local _ .vmem, ⟨13, _⟩ => ⟨S16x128x512, .f32⟩
  | _, _ => ⟨S512x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v26 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v27 : Ref sig .tc := ⟨.hbm, 86, rfl⟩
abbrev main_v28 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S16x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S16x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S16x128x1024_S16x128x1024_0_0_0 : ∀ a, (![0, 0, 0] : Fin 3 → Nat) a + S16x128x1024.size a ≤ S16x128x1024.size a
  h_S16x128x1024 : 0 < S16x128x1024.numel
  reduces_S16x128x1024_S16x128 : S16x128x1024.Reduces [2] S16x128
  inb_S16x128_S16x128_0_0 : ∀ a, (![0, 0] : Fin 2 → Nat) a + S16x128.size a ≤ S16x128.size a
  h_S16x128 : 0 < S16x128.numel
  bcast_S512_S512x1_0 : S512.BroadcastsInDim S512x1 (![0] : Fin 1 → Fin S512x1.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  reducesTo_S512x8_S8_d0 : S512x8.ReducesTo [0] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S_S8x128 : S_.BroadcastsInDim S8x128 (![] : Fin 0 → Fin S8x128.rank)
  bcast_S_S512 : S_.BroadcastsInDim S512 (![] : Fin 0 → Fin S512.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  bcast_S512_S512x128_0 : S512.BroadcastsInDim S512x128 (![0] : Fin 1 → Fin S512x128.rank)
  bcast_S_S512x128 : S_.BroadcastsInDim S512x128 (![] : Fin 0 → Fin S512x128.rank)
  shapeCasts_S16x128_S16x128 : S16x128.ShapeCasts S16x128
  inb_S16x128x512_S16x128x512_0_0_0 : ∀ a, (![0, 0, 0] : Fin 3 → Nat) a + S16x128x512.size a ≤ S16x128x512.size a
  h_S16x128x512 : 0 < S16x128x512.numel
  shapeCasts_S16x128_S16x128x1 : S16x128.ShapeCasts S16x128x1
  broadcasts_S16x128x1_S16x128x512 : S16x128x1.Broadcasts S16x128x512
  dot_S512x8_S512x128_S8x128_0_0_1_1_n_n_wf : DotDims.WF S512x8 S512x128 S8x128 [0] [0] [1] [1] [] []
  gather_S8x128_S512x1_S512x128_1_0_n_n_0_1_1128_wf : GatherDims.WF S8x128 S512x1 S512x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1024.size a ≤ S512x128x1024.size a
  hwx0_0 : ∀ i : grid0.Coords, EltTy.bits .f32 = 32 ∨ (Rect.block (s := S512x128x1024) S16x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S512x128.size a
  hwx0_1 : ∀ i : grid0.Coords, EltTy.bits .f32 = 32 ∨ (Rect.block (s := S512x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S512x128.size a
  hwx0_2 : ∀ i : grid0.Coords, EltTy.bits .f32 = 32 ∨ (Rect.block (s := S512x128) S16x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x512.size a ≤ S512x128x1024.size a
  hwx1_0 : ∀ i : grid1.Coords, EltTy.bits .f32 = 32 ∨ (Rect.block (s := S512x128x1024) S16x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S512x128.size a
  hwx1_1 : ∀ i : grid1.Coords, EltTy.bits .f32 = 32 ∨ (Rect.block (s := S512x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S512x128.size a
  hwx1_2 : ∀ i : grid1.Coords, EltTy.bits .f32 = 32 ∨ (Rect.block (s := S512x128) S16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x128x512.size a ≤ S512x128x1024.size a
  hwx1_3 : ∀ i : grid1.Coords, EltTy.bits .f32 = 32 ∨ (Rect.block (s := S512x128x1024) S16x128x512.size (cc1_transform_3 i) (hinb1_3 i)).WholeWords (EltTy.packing .f32)

variable [Facts₀]

def dot_S512x8_S512x128_S8x128_0_0_1_1_n_n : DotDims S512x8 S512x128 S8x128 where
  lhsContracting := [0]
  rhsContracting := [0]
  lhsNonContracting := [1]
  rhsNonContracting := [1]
  lhsBatch := []
  rhsBatch := []
  wf := dot_S512x8_S512x128_S8x128_0_0_1_1_n_n_wf
def gather_S8x128_S512x1_S512x128_1_0_n_n_0_1_1128 : GatherDims S8x128 S512x1 S512x128 where
  offsetDims := [1]
  collapsedSliceDims := [0]
  operandBatchingDims := []
  startIndicesBatchingDims := []
  startIndexMap := [0]
  indexVectorDim := 1
  sliceSizes := ![1, 128]
  wf := gather_S8x128_S512x1_S512x128_1_0_n_n_0_1_1128_wf

abbrev win0_0 : Pipeline.Window sig grid0 :=
  Pipeline.Window.ofSpec (Memref.whole main_arg0) S16x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S16x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S16x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S16x128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  halias1_3 : Pipeline.Aliased win1 0 3

variable [Facts]
-- ==== ReferenceIdeal.lean ====
abbrev S512x128x1024 : Shape := ⟨3, ![512, 128, 1024]⟩
abbrev S512 : Shape := ⟨1, ![512]⟩
abbrev S8x128 : Shape := ⟨2, ![8, 128]⟩
abbrev S512x1 : Shape := ⟨2, ![512, 1]⟩
abbrev S1x8 : Shape := ⟨2, ![1, 8]⟩
abbrev S512x8 : Shape := ⟨2, ![512, 8]⟩
abbrev S_ : Shape := ⟨0, ![]⟩
abbrev S8 : Shape := ⟨1, ![8]⟩
abbrev S512x128 : Shape := ⟨2, ![512, 128]⟩
abbrev S8x1 : Shape := ⟨2, ![8, 1]⟩
abbrev S512x128x1 : Shape := ⟨3, ![512, 128, 1]⟩

abbrev nBuf : Space → Nat
  | .hbm => 65
  | .vmem => 0
  | .smem => 0
  | _ => 0

abbrev bufTy : (tb : Table) → Fin (tcTables nBuf tb) → BufTy
  | .hbm, ⟨0, _⟩ => ⟨S512x128x1024, .f32⟩
  | .hbm, ⟨1, _⟩ => ⟨S512, .i32⟩
  | .hbm, ⟨2, _⟩ => ⟨S8x128, .f32⟩
  | .hbm, ⟨3, _⟩ => ⟨S8x128, .f32⟩
  | .hbm, ⟨4, _⟩ => ⟨S512x1, .i32⟩
  | .hbm, ⟨5, _⟩ => ⟨S1x8, .i32⟩
  | .hbm, ⟨6, _⟩ => ⟨S512x8, .i32⟩
  | .hbm, ⟨7, _⟩ => ⟨S512x8, .i32⟩
  | .hbm, ⟨8, _⟩ => ⟨S512x8, .i1⟩
  | .hbm, ⟨9, _⟩ => ⟨S512x8, .f32⟩
  | .hbm, ⟨10, _⟩ => ⟨S_, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S512x128, .f32⟩
  | .hbm, ⟨20, _⟩ => ⟨S8x128, .f32⟩
  | .hbm, ⟨21, _⟩ => ⟨S512x128x1024, .f32⟩
  | .hbm, ⟨22, _⟩ => ⟨S_, .f32⟩
  | .hbm, ⟨23, _⟩ => ⟨S512x128, .f32⟩
  | .hbm, ⟨24, _⟩ => ⟨S8x128, .f32⟩
  | .hbm, ⟨25, _⟩ => ⟨S8x1, .f32⟩
  | .hbm, ⟨26, _⟩ => ⟨S8x128, .f32⟩
  | .hbm, ⟨27, _⟩ => ⟨S8x128, .f32⟩
  | .hbm, ⟨28, _⟩ => ⟨S8x1, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S8x128, .f32⟩
  | .hbm, ⟨33, _⟩ => ⟨S_, .f32⟩
  | .hbm, ⟨34, _⟩ => ⟨S8x128, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S512x1, .i32⟩
  | .hbm, ⟨46, _⟩ => ⟨S512x128, .f32⟩
  | .hbm, ⟨47, _⟩ => ⟨S512x128x1, .f32⟩
  | .hbm, ⟨48, _⟩ => ⟨S8x128, .f32⟩
  | .hbm, ⟨49, _⟩ => ⟨S8x128, .f32⟩
  | .hbm, ⟨50, _⟩ => ⟨S8x128, .f32⟩
  | .hbm, ⟨51, _⟩ => ⟨S_, .i32⟩
  | .hbm, ⟨52, _⟩ => ⟨S512, .i32⟩
  | .hbm, ⟨53, _⟩ => ⟨S512, .i1⟩
  | .hbm, ⟨54, _⟩ => ⟨S_, .i32⟩
  | .hbm, ⟨55, _⟩ => ⟨S512, .i32⟩
  | .hbm, ⟨56, _⟩ => ⟨S512, .i32⟩
  | .hbm, ⟨57, _⟩ => ⟨S512, .i32⟩
  | .hbm, ⟨58, _⟩ => ⟨S512x1, .i32⟩
  | .hbm, ⟨59, _⟩ => ⟨S512x128, .f32⟩
  | .hbm, ⟨60, _⟩ => ⟨S512x128x1, .f32⟩
  | .hbm, ⟨61, _⟩ => ⟨S512x128x1024, .f32⟩
  | .hbm, ⟨62, _⟩ => ⟨S512x128x1024, .f32⟩
  | .hbm, ⟨63, _⟩ => ⟨S512x128x1024, .f32⟩
  | .hbm, ⟨64, _⟩ => ⟨S512x128x1024, .f32⟩
  | _, _ => ⟨S512x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  reducesTo_S512x8_S8_d0 : S512x8.ReducesTo [0] S8
  h_S_ : 0 < S_.numel
  bcast_S_S8 : S_.BroadcastsInDim S8 (![] : Fin 0 → Fin S8.rank)
  reducesTo_S512x128x1024_S512x128_d2 : S512x128x1024.ReducesTo [2] S512x128
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S_S8x128 : S_.BroadcastsInDim S8x128 (![] : Fin 0 → Fin S8x128.rank)
  bcast_S_S512 : S_.BroadcastsInDim S512 (![] : Fin 0 → Fin S512.rank)
  bcast_S512x128_S512x128x1_0_1 : S512x128.BroadcastsInDim S512x128x1 (![0, 1] : Fin 2 → Fin S512x128x1.rank)
  bcast_S512x128x1_S512x128x1024_0_1_2 : S512x128x1.BroadcastsInDim S512x128x1024 (![0, 1, 2] : Fin 3 → Fin S512x128x1024.rank)
  dot_S512x8_S512x128_S8x128_0_0_1_1_n_n_wf : DotDims.WF S512x8 S512x128 S8x128 [0] [0] [1] [1] [] []
  gather_S8x128_S512x1_S512x128_1_0_n_n_0_1_1128_wf : GatherDims.WF S8x128 S512x1 S512x128 [1] [0] [] [0] [] 1 ![1, 128]

variable [Facts₀]

def dot_S512x8_S512x128_S8x128_0_0_1_1_n_n : DotDims S512x8 S512x128 S8x128 where
  lhsContracting := [0]
  rhsContracting := [0]
  lhsNonContracting := [1]
  rhsNonContracting := [1]
  lhsBatch := []
  rhsBatch := []
  wf := dot_S512x8_S512x128_S8x128_0_0_1_1_n_n_wf
def gather_S8x128_S512x1_S512x128_1_0_n_n_0_1_1128 : GatherDims S8x128 S512x1 S512x128 where
  offsetDims := [1]
  collapsedSliceDims := [0]
  operandBatchingDims := []
  startIndicesBatchingDims := []
  startIndexMap := [0]
  indexVectorDim := 1
  sliceSizes := ![1, 128]
  wf := gather_S8x128_S512x1_S512x128_1_0_n_n_0_1_1128_wf

class Facts : Prop extends Facts₀ where

variable [Facts]
-- ==== Proof.ClassNorm.lean ====
/-
  Per-class batch normalisation, as the functions both programs share.

  The input `x : [512, 128, 1024]` holds 512 samples of 128 features over 1024 positions; `lab : [512]` names each
  sample's class among 8; `w, b : [8, 128]` are the per-class affine tables. Both programs compute, per class `k` and
  feature `f`,

    n_k      = number of samples of class k,            c_k = max (1024 · n_k, 1),
    mean_kf  = (Σ_{s of class k} Σ_p x[s,f,p]) / c_k,
    var_kf   = (Σ_{s of class k} Σ_p x[s,f,p]²) / c_k − mean_kf²,
    inv_kf   = (var_kf + ε)^(-1/2),
    scale_kf = inv_kf · w_kf,       shift_kf = b_kf − mean_kf · inv_kf · w_kf,

  and return `x[s,f,p] · scale[lab s, f] + shift[lab s, f]`. The sums over a class are a product with the one-hot
  matrix of the labels. This module names each stage once, over the shapes and side conditions of the printed kernel
  program, so that every later statement speaks of the same terms.
-/
import proofs.«409846_j46334107189658_3_alg».proof.KernelIdeal
import Idealize.ShloMosaic.PureOps.Ideal
import Idealize.ShloMosaic.Lib.ValueIdx

noncomputable section

namespace Cert.ClassNorm

open Idealize.ShloMosaic Idealize.ShloMosaic.ValueIdx
open Cert.KernelIdeal Cert.KernelIdeal.Facts₀ Cert.KernelIdeal.Facts

variable [Cert.KernelIdeal.Facts]

/-! ## The sums over positions -/

/-- `Σ_p x[s,f,p]`: each sample's feature summed over its 1024 positions. -/
def rowSum (x : FVec Ideal S512x128x1024 .f32) : FVec Ideal S512x128 .f32 :=
  fun j => ∑ p : Fin 1024, x (ix3 (j 0) (j 1) p)

/-- `Σ_p x[s,f,p]²`. -/
def rowSumSq (x : FVec Ideal S512x128x1024 .f32) : FVec Ideal S512x128 .f32 :=
  fun j => ∑ p : Fin 1024, x (ix3 (j 0) (j 1) p) * x (ix3 (j 0) (j 1) p)

/-! ## The per-class statistics -/

/-- The one-hot matrix of the labels: entry `(s, k)` is 1 when sample `s` has class `k`, else 0. -/
def oneHot (lab : IVec S512 32) : FVec Ideal S512x8 .f32 :=
  uitofp .f32 (cmpi .eq
    (broadcastInDim S512x8 ![0, 1] bcast_S512x1_S512x8_0_1 (broadcastInDim S512x1 ![0] bcast_S512_S512x1_0 lab))
    (broadcastInDim S512x8 ![0, 1] bcast_S1x8_S512x8_0_1 (iotaInDim S1x8 32 1)))

/-- `c_k = max (1024 · n_k, 1)`: the number of elements a class averages over, at least one. -/
def classCount (M : FVec Ideal S512x8 .f32) : FVec Ideal S8 .f32 :=
  maximumf
    (mulf (Host.reduceAdd M (constant S_ .f32 0x00000000#32) reducesTo_S512x8_S8_d0 h_S_)
      (broadcastInDim S8 ![] bcast_S_S8 (constant S_ .f32 0x44800000#32)))
    (broadcastInDim S8 ![] bcast_S_S8 (constant S_ .f32 0x3F800000#32))

/-- The counts laid out beside the `[8, 128]` tables: the same `c_k` in every feature column. -/
def countCols (cnt : FVec Ideal S8 .f32) : FVec Ideal S8x128 .f32 :=
  broadcastInDim S8x128 ![0, 1] bcast_S8x1_S8x128_0_1 (broadcastInDim S8x1 ![0] bcast_S8_S8x1_0 cnt)

/-- `Σ_s M[s,k] · r[s,f]`: a per-sample table summed over each class. -/
def classSum (prec : Option ContractPrecision) (M : FVec Ideal S512x8 .f32) (r : FVec Ideal S512x128 .f32) :
    FVec Ideal S8x128 .f32 :=
  Host.dotGeneral dot_S512x8_S512x128_S8x128_0_0_1_1_n_n prec M r

/-- `mean_kf`. -/
def classMean (prec : Option ContractPrecision) (M : FVec Ideal S512x8 .f32) (rs : FVec Ideal S512x128 .f32) :
    FVec Ideal S8x128 .f32 :=
  Host.divf (classSum prec M rs) (countCols (classCount M))

/-- `var_kf`: the mean of the squares less the square of the mean. -/
def classVar (prec : Option ContractPrecision) (M : FVec Ideal S512x8 .f32) (rs rsq : FVec Ideal S512x128 .f32) :
    FVec Ideal S8x128 .f32 :=
  subf (Host.divf (classSum prec M rsq) (countCols (classCount M))) (mulf (classMean prec M rs) (classMean prec M rs))

/-- The variance cut off below at zero, as the kernel's program writes it. -/
def clampVar (v : FVec Ideal S8x128 .f32) : FVec Ideal S8x128 .f32 :=
  maximumf v (broadcastInDim S8x128 ![] bcast_S_S8x128 (constant S_ .f32 0x00000000#32))

/-- `inv_kf = (v + ε)^(-1/2)`. -/
def invStd (v : FVec Ideal S8x128 .f32) : FVec Ideal S8x128 .f32 :=
  Host.rsqrt (addf v (broadcastInDim S8x128 ![] bcast_S_S8x128 (constant S_ .f32 0x3727C5AC#32)))

/-- `scale_kf = inv_kf · w_kf`. -/
def scaleTbl (inv w : FVec Ideal S8x128 .f32) : FVec Ideal S8x128 .f32 := mulf inv w

/-- `shift_kf = b_kf − mean_kf · inv_kf · w_kf`. -/
def shiftTbl (mean inv w b : FVec Ideal S8x128 .f32) : FVec Ideal S8x128 .f32 := subf b (mulf (mulf mean inv) w)

/-! ## Picking each sample's row of a table -/

/-- The labels as row numbers: a negative label counts from the end (`lab + 8`), laid out as a `[512, 1]` column. -/
def rowIdx (lab : IVec S512 32) : IVec S512x1 32 :=
  broadcastInDim S512x1 ![0] bcast_S512_S512x1_0
    (select (cmpi .slt lab (broadcastInDim S512 ![] bcast_S_S512 (constantI S_ 32 0#32)))
      (addi lab (broadcastInDim S512 ![] bcast_S_S512 (constantI S_ 32 8#32))) lab)

/-- Row `lab s` of an `[8, 128]` table for every sample `s` (the row number clamped into the table). -/
def takeRows (tbl : FVec Ideal S8x128 .f32) (idx : IVec S512x1 32) : FVec Ideal S512x128 .f32 :=
  Host.gather gather_S8x128_S512x1_S512x128_1_0_n_n_0_1_1128 tbl idx

/-- Which samples' row numbers lie inside the table: `0 ≤ idx ≤ 7`. -/
def rowInside (idx : IVec S512x1 32) : IVec S512 1 :=
  Host.reduce IntOp.andi
    (andi (cmpi .sge idx (broadcastInDim S512x1 ![] bcast_S_S512x1 (constantI S_ 32 0#32)))
      (cmpi .sle idx (broadcastInDim S512x1 ![0, 1] bcast_S1x1_S512x1_0_1
        (broadcastInDim S1x1 ![1] bcast_S1_S1x1_1 (constantI S1 32 7#32)))))
    (constantI S_ 1 1#1) reducesTo_S512x1_S512_d1 h_S_

/-- The kernel program's row pick: the table's row where the row number lies inside the table, a fill value elsewhere. -/
def takeRowsFill (tbl : FVec Ideal S8x128 .f32) (idx : IVec S512x1 32) : FVec Ideal S512x128 .f32 :=
  select (broadcastInDim S512x128 ![0] bcast_S512_S512x128_0 (rowInside idx)) (takeRows tbl idx)
    (broadcastInDim S512x128 ![] bcast_S_S512x128 (constant S_ .f32 0x7FC00000#32))

/-! ## The result -/

/-- `x[s,f,p] · sc[s,f] + sh[s,f]`. -/
def affine (x : FVec Ideal S512x128x1024 .f32) (sc sh : FVec Ideal S512x128 .f32) : FVec Ideal S512x128x1024 .f32 :=
  fun i => x i * sc (ix2 (i 0) (i 1)) + sh (ix2 (i 0) (i 1))

/-- The per-sample scale rows the kernel's program feeds its second pass, from the row sums it is given. -/
def kScale (M : FVec Ideal S512x8 .f32) (rs rsq : FVec Ideal S512x128 .f32) (w : FVec Ideal S8x128 .f32) : FVec Ideal S8x128 .f32 :=
  scaleTbl (invStd (clampVar (classVar (some .fp32) M rs rsq))) w

/-- The per-sample shift rows likewise. -/
def kShift (M : FVec Ideal S512x8 .f32) (rs rsq : FVec Ideal S512x128 .f32) (w b : FVec Ideal S8x128 .f32) : FVec Ideal S8x128 .f32 :=
  shiftTbl (classMean (some .fp32) M rs) (invStd (clampVar (classVar (some .fp32) M rs rsq))) w b

end Cert.ClassNorm

end
-- ==== Proof.HostChain.lean ====
/-
  Between the two passes: what the host operations leave in the arrays the second pass reads.

  From the first pass's exit contents the host program builds the one-hot matrix of the labels, the class counts, the
  class sums of the two row-sum arrays, mean, variance (cut off at zero), inverse deviation, the scale and shift tables,
  and picks each sample's row of both tables (guarded: a fill value where a row number falls outside the table). No
  host operation writes `x`, the labels or the affine tables, so the second pass finds them as launched.
-/
import proofs.«409846_j46334107189658_3_alg».proof.Proof.Gen.KernelIdeal.Frame
import proofs.«409846_j46334107189658_3_alg».proof.Proof.ClassNorm
import Idealize.ShloMosaic.Lib.StableHlo.Run

set_option maxRecDepth 16384

noncomputable section

namespace Cert.ClassNorm.Chain

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The per-sample scale rows the second pass is entered with, from the first pass's exit contents `W1`. -/
theorem scale_rows (c : Dev nD) :
    V6 m ρ c main_v26
      = takeRowsFill (kScale (oneHot (W1 m ρ c (Proc.devRef .tc main_arg1))) (W1 m ρ c (Proc.devRef .tc main_v0_0))
          (W1 m ρ c (Proc.devRef .tc main_v0_1)) (W1 m ρ c (Proc.devRef .tc main_arg2)))
          (rowIdx (W1 m ρ c (Proc.devRef .tc main_arg1))) := by
  show StableHlo.after hostOps1_4 (StableHlo.after hostOps1_3 (StableHlo.after hostOps1_2 (StableHlo.after hostOps1_1
    (StableHlo.after hostOps1 (W1 m ρ c))))) (Proc.devRef .tc main_v26) = _
  after_results_simp
  rfl

/-- The per-sample shift rows likewise. -/
theorem shift_rows (c : Dev nD) :
    V6 m ρ c main_v27
      = takeRowsFill (kShift (oneHot (W1 m ρ c (Proc.devRef .tc main_arg1))) (W1 m ρ c (Proc.devRef .tc main_v0_0))
          (W1 m ρ c (Proc.devRef .tc main_v0_1)) (W1 m ρ c (Proc.devRef .tc main_arg2)) (W1 m ρ c (Proc.devRef .tc main_arg3)))
          (rowIdx (W1 m ρ c (Proc.devRef .tc main_arg1))) := by
  show StableHlo.after hostOps1_4 (StableHlo.after hostOps1_3 (StableHlo.after hostOps1_2 (StableHlo.after hostOps1_1
    (StableHlo.after hostOps1 (W1 m ρ c))))) (Proc.devRef .tc main_v27) = _
  after_results_simp
  rfl

/-- The second pass finds `x` as launched: neither the first pass nor a host operation writes it. -/
theorem x_at_pass2 (c : Dev nD) : V6 m ρ c main_arg0 = m ((c : Thread nD τ).loc main_arg0) :=
  ((W7_arr m ρ c 0).trans (((dat1 (V6 m ρ) c).arrAt_in 0 rfl _).trans (A_eq1 (V6 m ρ) c 0))).symm.trans (W7_main_arg0 m ρ c)

/-- The first pass leaves the labels and the affine tables as launched: they are none of its arrays. -/
theorem labels_after_pass1 (c : Dev nD) : W1 m ρ c (Proc.devRef .tc main_arg1) = m ((c : Thread nD τ).loc main_arg1) :=
  W1_of_ne m ρ c main_arg1 (by decide)
theorem weight_after_pass1 (c : Dev nD) : W1 m ρ c (Proc.devRef .tc main_arg2) = m ((c : Thread nD τ).loc main_arg2) :=
  W1_of_ne m ρ c main_arg2 (by decide)
theorem bias_after_pass1 (c : Dev nD) : W1 m ρ c (Proc.devRef .tc main_arg3) = m ((c : Thread nD τ).loc main_arg3) :=
  W1_of_ne m ρ c main_arg3 (by decide)

end Cert.ClassNorm.Chain

end
-- ==== Proof.RowSums.lean ====
/-
  The first pass: what its two output arrays hold once every grid point has run.

  The grid has 32 points; point `t` stages samples `16 t … 16 t + 15` of `x` (all features, all positions), sums each
  row of the block over its 1024 positions, once as it is and once squared, and writes the two `[16, 128]` results back
  as rows `16 t … 16 t + 15` of the two `[512, 128]` outputs. The 32 blocks tile the outputs, so each output is the
  row sum of the whole of `x`, whatever the region's entry contents `V` are elsewhere.

  The steps: a sum over the last axis of a `[16, 128, 1024]` block, at row `(a, f)`, is `Σ_p` of the block at
  `(a, f, p)`; the block point `t` stages holds `x` at sample `16 t + a`, and the block it writes back is rows
  `16 t + a` of the output (an element's coordinate is the block's index times the block's size plus its coordinate
  inside the block, the indices decided once over the 32 points); row `r` of an output lies in the block of point
  `r / 16`, and every point writes its block back.
-/
import proofs.«409846_j46334107189658_3_alg».proof.Proof.Gen.KernelIdeal.Frame
import proofs.«409846_j46334107189658_3_alg».proof.Proof.ClassNorm
import Idealize.ShloMosaic.Lib.Pipeline.Value
import Idealize.ShloMosaic.PureOps.Ideal.Laws

noncomputable section

namespace Cert.ClassNorm.RowSums

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The body's two sums, at a row of the block -/

/-- The index a sum over the last axis inserts: the result's two coordinates, then the position. -/
theorem lift_last (h : S16x128x1024.Reduces [2] S16x128) (a : Fin 16) (f : Fin 128) (k : Fin 1024) :
    h.lift (ix2 a f) k = ix3 a f k := by
  funext d; apply Fin.ext
  match d with
  | ⟨0, _⟩ => rfl
  | ⟨1, _⟩ => rfl
  | ⟨2, _⟩ => rfl

/-- The first payload is the sum over the last axis, in the form the reduction's law gives it. -/
theorem pay1_lift (x0 : Vec Ideal S16x128x1024 .f32) (j : S16x128.Idx) :
    k0_pay1 x0 j = ∑ k : Fin (S16x128x1024.size 2), x0 (reduces_S16x128x1024_S16x128.lift j k) :=
  Ideal.multiReduction_add_single (s := S16x128x1024) (t := S16x128) (a := 2) (φ := .f32) x0 0x00000000#32
    reduces_S16x128x1024_S16x128 (.inl rfl) rfl j

/-- The second payload likewise, of the squares. -/
theorem pay2_lift (x0 : Vec Ideal S16x128x1024 .f32) (j : S16x128.Idx) :
    k0_pay2 x0 j = ∑ k : Fin (S16x128x1024.size 2), mulf x0 x0 (reduces_S16x128x1024_S16x128.lift j k) :=
  Ideal.multiReduction_add_single (s := S16x128x1024) (t := S16x128) (a := 2) (φ := .f32) (mulf x0 x0) 0x00000000#32
    reduces_S16x128x1024_S16x128 (.inl rfl) rfl j

/-- The first payload at a row of the block: the row summed over its 1024 positions. -/
theorem pay_sum (x0 : Vec Ideal S16x128x1024 .f32) (a : Fin 16) (f : Fin 128) :
    k0_pay1 x0 (ix2 a f) = ∑ p : Fin 1024, x0 (ix3 a f p) := by
  rw [pay1_lift]
  show ∑ k : Fin 1024, x0 (reduces_S16x128x1024_S16x128.lift (ix2 a f) k) = _
  exact Finset.sum_congr rfl fun k _ => by rw [lift_last]

/-- The second payload at a row of the block: the squares summed. -/
theorem pay_sumSq (x0 : Vec Ideal S16x128x1024 .f32) (a : Fin 16) (f : Fin 128) :
    k0_pay2 x0 (ix2 a f) = ∑ p : Fin 1024, x0 (ix3 a f p) * x0 (ix3 a f p) := by
  rw [pay2_lift]
  show ∑ k : Fin 1024, mulf (F := Ideal) (φ := .f32) x0 x0 (reduces_S16x128x1024_S16x128.lift (ix2 a f) k) = _
  exact Finset.sum_congr rfl fun k _ => by rw [lift_last, mulf_apply]

/-! ## Which block each point stages and writes back -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the grid: point `t` stages block `t` of the samples, whole in the features
    and the positions, and writes back block `t` of each output's rows. -/
theorem block_of_point : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The staged block of `x` at point `t`, at a row and a position: sample `16 t + a`, the same feature and position. -/
theorem staged_at (c : Dev nD) (t : Fin cfg0.N) (a : Fin 16) (f : Fin 128) (p : Fin 1024)
    (s : Fin 512) (g : Fin 128) (hs : s.val = 16 * t.val + a.val) (hg : g.val = f.val) :
    iblk0 V c 0 t (ix3 a f p) = V c main_arg0 (ix3 s g p) := by
  show V c main_arg0 (((cfg0.win 0).blk t).view.emb (ix3 a f p)) = V c main_arg0 (ix3 s g p)
  congr 1
  obtain ⟨e0, e1, e2, -⟩ := block_of_point t
  funext d; apply Fin.ext
  match d with
  | ⟨0, _⟩ => show win0_0.index t (0 : Fin 3) * 16 + 1 * a.val = s.val; omega
  | ⟨1, _⟩ => show win0_0.index t (1 : Fin 3) * 128 + 1 * f.val = g.val; omega
  | ⟨2, _⟩ => show win0_0.index t (2 : Fin 3) * 1024 + 1 * p.val = p.val; omega

/-! ## The first output: the row sums -/

/-- WHAT POINT `t` WRITES BACK to the first output is block `t` of the row sums of `x` as the pass finds it. -/
theorem flushed_sums (c : Dev nD) (t : Fin cfg0.N) :
    (dat0 V c).flushed 1 t = ((cfg0.win 1).blk t).view.read (Elt Ideal) (rowSum (V c main_arg0)) := by
  show (cfg0.win 1).cut (grid0.coords t) ((dat0 V c).after 1 t) = _
  rw [after0_1]
  unfold out0_1
  rw [View.canon_unit_zero zeros2]
  simp only [View.ld_unit_zero (S := S16x128x1024) zeros3]
  funext j
  obtain ⟨a, f, rfl⟩ : ∃ (a : Fin 16) (f : Fin 128), j = ix2 a f := ⟨j 0, j 1, eq_ix2 j⟩
  obtain ⟨-, -, -, e3, e4, -⟩ := block_of_point t
  have h0 : (((cfg0.win 1).blk t).view.emb (ix2 a f) 0).val = 16 * t.val + a.val := by
    show win0_1.index t (0 : Fin 2) * 16 + 1 * a.val = _; omega
  have h1 : (((cfg0.win 1).blk t).view.emb (ix2 a f) 1).val = f.val := by
    show win0_1.index t (1 : Fin 2) * 128 + 1 * f.val = _; omega
  show k0_pay1 (iblk0 V c 0 t) (ix2 a f)
      = rowSum (V c main_arg0) (((cfg0.win 1).blk t).view.emb (ix2 a f))
  rw [pay_sum]
  unfold rowSum
  exact Finset.sum_congr rfl fun p _ => staged_at V c t a f p _ _ h0 h1

/-- An index of the first output is in point `t`'s block iff each coordinate is in the block's range on its axis. -/
theorem mem_block_sums (t : Fin cfg0.N) (i : S512x128.Idx) :
    i ∈ ((cfg0.win 1).blk t).view.set ↔ ∀ a : Fin 2, win0_1.index t a * S16x128.size a ≤ (i a).val ∧ (i a).val < win0_1.index t a * S16x128.size a + S16x128.size a := by
  show i ∈ ((View.whole main_v0_0).slice (win0_1.rect t)).set ↔ _
  rw [View.set_slice_whole, Rect.mem_set_unit]
  exact Iff.rfl

/-- The 32 blocks of 16 rows tile the first output: row `r` lies in the block of point `r / 16`. -/
theorem cover_sums (i : S512x128.Idx) :
    ∃ t : Fin cfg0.N, (cfg0.win 1).flush t = true ∧ i ∈ ((cfg0.win 1).blk t).view.set := by
  have hi0 : (i 0).val < 512 := (i 0).isLt
  have hi1 : (i 1).val < 128 := (i 1).isLt
  refine ⟨⟨(i 0).val / 16, by show (i 0).val / 16 < 32; omega⟩, flush0_1 _, ?_⟩
  rw [mem_block_sums]
  obtain ⟨-, -, -, e3, e4, -⟩ := block_of_point ⟨(i 0).val / 16, by show (i 0).val / 16 < 32; omega⟩
  have e3' : win0_1.index ⟨(i 0).val / 16, by show (i 0).val / 16 < 32; omega⟩ (0 : Fin 2) = (i 0).val / 16 := e3
  intro a
  match a with
  | ⟨0, _⟩ => show win0_1.index _ (0 : Fin 2) * 16 ≤ (i 0).val ∧ (i 0).val < win0_1.index _ (0 : Fin 2) * 16 + 16; omega
  | ⟨1, _⟩ => show win0_1.index _ (1 : Fin 2) * 128 ≤ (i 1).val ∧ (i 1).val < win0_1.index _ (1 : Fin 2) * 128 + 128; omega

/-- The first output of the first pass is the row sum of `x` as the pass finds it. -/
theorem sums (c : Dev nD) : (dat0 V c).arrAt 1 cfg0.N = rowSum (V c main_arg0) :=
  (dat0 V c).arrAt_eq_of_cover 1 (rowSum (V c main_arg0)) (fun t _ => flushed_sums V c t) cover_sums

/-! ## The second output: the row sums of the squares -/

/-- WHAT POINT `t` WRITES BACK to the second output is block `t` of the row sums of the squares of `x`. -/
theorem flushed_sumSqs (c : Dev nD) (t : Fin cfg0.N) :
    (dat0 V c).flushed 2 t = ((cfg0.win 2).blk t).view.read (Elt Ideal) (rowSumSq (V c main_arg0)) := by
  show (cfg0.win 2).cut (grid0.coords t) ((dat0 V c).after 2 t) = _
  rw [after0_2]
  unfold out0_2
  rw [View.canon_unit_zero zeros2]
  simp only [View.ld_unit_zero (S := S16x128x1024) zeros3]
  funext j
  obtain ⟨a, f, rfl⟩ : ∃ (a : Fin 16) (f : Fin 128), j = ix2 a f := ⟨j 0, j 1, eq_ix2 j⟩
  obtain ⟨-, -, -, -, -, e3, e4⟩ := block_of_point t
  have h0 : (((cfg0.win 2).blk t).view.emb (ix2 a f) 0).val = 16 * t.val + a.val := by
    show win0_2.index t (0 : Fin 2) * 16 + 1 * a.val = _; omega
  have h1 : (((cfg0.win 2).blk t).view.emb (ix2 a f) 1).val = f.val := by
    show win0_2.index t (1 : Fin 2) * 128 + 1 * f.val = _; omega
  show k0_pay2 (iblk0 V c 0 t) (ix2 a f)
      = rowSumSq (V c main_arg0) (((cfg0.win 2).blk t).view.emb (ix2 a f))
  rw [pay_sumSq]
  unfold rowSumSq
  refine Finset.sum_congr rfl fun p _ => ?_
  rw [staged_at V c t a f p _ _ h0 h1]

/-- An index of the second output is in point `t`'s block iff each coordinate is in the block's range on its axis. -/
theorem mem_block_sumSqs (t : Fin cfg0.N) (i : S512x128.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v0_1).slice (win0_2.rect t)).set ↔ _
  rw [View.set_slice_whole, Rect.mem_set_unit]
  exact Iff.rfl

/-- The 32 blocks of 16 rows tile the second output: row `r` lies in the block of point `r / 16`. -/
theorem cover_sumSqs (i : S512x128.Idx) :
    ∃ t : Fin cfg0.N, (cfg0.win 2).flush t = true ∧ i ∈ ((cfg0.win 2).blk t).view.set := by
  have hi0 : (i 0).val < 512 := (i 0).isLt
  have hi1 : (i 1).val < 128 := (i 1).isLt
  refine ⟨⟨(i 0).val / 16, by show (i 0).val / 16 < 32; omega⟩, flush0_2 _, ?_⟩
  rw [mem_block_sumSqs]
  obtain ⟨-, -, -, -, -, e3, e4⟩ := block_of_point ⟨(i 0).val / 16, by show (i 0).val / 16 < 32; omega⟩
  have e3' : win0_2.index ⟨(i 0).val / 16, by show (i 0).val / 16 < 32; omega⟩ (0 : Fin 2) = (i 0).val / 16 := e3
  intro a
  match a with
  | ⟨0, _⟩ => show win0_2.index _ (0 : Fin 2) * 16 ≤ (i 0).val ∧ (i 0).val < win0_2.index _ (0 : Fin 2) * 16 + 16; omega
  | ⟨1, _⟩ => show win0_2.index _ (1 : Fin 2) * 128 ≤ (i 1).val ∧ (i 1).val < win0_2.index _ (1 : Fin 2) * 128 + 128; omega

/-- The second output is the row sum of the squares. -/
theorem sumSqs (c : Dev nD) : (dat0 V c).arrAt 2 cfg0.N = rowSumSq (V c main_arg0) :=
  (dat0 V c).arrAt_eq_of_cover 2 (rowSumSq (V c main_arg0)) (fun t _ => flushed_sumSqs V c t) cover_sumSqs

end Cert.ClassNorm.RowSums

end
-- ==== Proof.Apply.lean ====
/-
  The second pass: what its output array holds once every grid point has run.

  The grid has 32 × 2 points; point `(i, j)` stages samples `16 i … 16 i + 15`, all features, positions
  `512 j … 512 j + 511` of `x`, and rows `16 i … 16 i + 15` of the per-sample scale and shift tables, and writes
  `x · scale + shift` (scale and shift constant along the positions) back to the same block of the output. The 64
  blocks tile the output, so nothing of its entry contents is left.
-/
import proofs.«409846_j46334107189658_3_alg».proof.Proof.Gen.KernelIdeal.Frame
import proofs.«409846_j46334107189658_3_alg».proof.Proof.ClassNorm
import Idealize.ShloMosaic.Lib.Pipeline.Value
import Idealize.ShloMosaic.Lib.ValueLayout

noncomputable section

namespace Cert.ClassNorm.Apply

open Idealize.ShloMosaic Idealize.ShloMosaic.TcCoe Idealize.ShloMosaic.ValueIdx Idealize.SL.Sem
open Idealize.ShloMosaic.Pipeline (Dat)
open Cert.KernelIdeal Cert.KernelIdeal.Gen

/-! ## The body's payload at an index -/

/-- A `[16, 128]` table laid out as a `[16, 128, 1]` column and repeated along the 512 positions reads, at
    `(a, f, p)`, the table at `(a, f)`. -/
theorem column_repeat_apply (v : FVec Ideal S16x128 .f32) (a : Fin 16) (f : Fin 128) (p : Fin 512) :
    broadcastTo S16x128x512 (shapeCast S16x128x1 v Facts₀.shapeCasts_S16x128_S16x128x1)
      Facts₀.broadcasts_S16x128x1_S16x128x512 (ix3 a f p) = v (ix2 a f) := by
  rw [broadcastTo_apply _ _ (ix3 a f p) (ix3 a f (0 : Fin 1)) (fun x => by
    match x with
    | ⟨0, _⟩ => rfl
    | ⟨1, _⟩ => rfl
    | ⟨2, _⟩ => rfl)]
  refine shapeCast_apply v _ (ix3 a f (0 : Fin 1)) (ix2 a f) ?_
  rw [Shape.rowMajor_val_two, Shape.rowMajor_val_three]
  show a.val * 128 + f.val = (a.val * 128 + f.val) * 1 + 0
  omega

/-- The body's stored value at `(a, f, p)`: the `x` block's entry times the scale row's, plus the shift row's. -/
theorem pay_apply (v0 v2 : Vec Ideal S16x128 .f32) (v4 : Vec Ideal S16x128x512 .f32)
    (a : Fin 16) (f : Fin 128) (p : Fin 512) :
    k1_pay1 v0 v2 v4 (ix3 a f p) = v4 (ix3 a f p) * v0 (ix2 a f) + v2 (ix2 a f) := by
  unfold k1_pay1
  simp only [shapeCast_self]
  rw [addf_apply, mulf_apply, column_repeat_apply, column_repeat_apply]

/-! ## What one grid point writes back -/

/-- The stored value at `(a, f, p)` of a block is the affine map at the array index `i` the block's entry sits at, once
    the three staged blocks read the three arrays there. -/
theorem pay_eq_affine (x : FVec Ideal S512x128x1024 .f32) (sc sh : FVec Ideal S512x128 .f32)
    (bx : Vec Ideal S16x128x512 .f32) (bsc bsh : Vec Ideal S16x128 .f32)
    (a : Fin 16) (f : Fin 128) (p : Fin 512) (i : S512x128x1024.Idx)
    (hx : bx (ix3 a f p) = x i) (hsc : bsc (ix2 a f) = sc (ix2 (i 0) (i 1)))
    (hsh : bsh (ix2 a f) = sh (ix2 (i 0) (i 1))) :
    k1_pay1 bsc bsh bx (ix3 a f p) = affine x sc sh i := by
  rw [pay_apply, hx, hsc, hsh]; rfl

variable (V : (c : Dev nD) → (b : Ref sig .tc) → Buf (Elt Ideal) ((c : Thread nD τ).loc b))

theorem origin3 : (![0, 0, 0] : Fin 3 → Nat) = fun _ => 0 :=
  funext fun a => match a with | ⟨0, _⟩ => rfl | ⟨1, _⟩ => rfl | ⟨2, _⟩ => rfl
theorem origin2 : (![0, 0] : Fin 2 → Nat) = fun _ => 0 :=
  funext fun a => match a with | ⟨0, _⟩ => rfl | ⟨1, _⟩ => rfl

/-- The printed index maps, decided over the 64 grid points: the `x` block moves with the output block on every axis; the
    scale and shift blocks follow its sample axis and stay at feature block 0; the output's block index is
    `(i, 0, j)` with `i ≤ 31`, `j ≤ 1`. -/
theorem block_maps : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 2) = win1_3.index t (0 : Fin 3)
    ∧ win1_1.index t (1 : Fin 2) = 0
    ∧ win1_2.index t (0 : Fin 2) = win1_3.index t (0 : Fin 3)
    ∧ win1_2.index t (1 : Fin 2) = 0
    ∧ win1_3.index t (0 : Fin 3) ≤ 31
    ∧ win1_3.index t (1 : Fin 3) = 0
    ∧ win1_3.index t (2 : Fin 3) ≤ 1 :=
  (by decide +kernel : ∀ t : Fin grid1.N, _)

/-- WHAT POINT `t` WRITES BACK is block `t` of `x · scale + shift` of the three arrays as the pass finds them. -/
theorem flushed_eq (c : Dev nD) (t : Fin cfg1.N) :
    (dat1 V c).flushed 3 t
      = ((cfg1.win 3).blk t).view.read (Elt Ideal) (affine (V c main_arg0) (V c main_v26) (V c main_v27)) := by
  show (cfg1.win 3).cut (grid1.coords t) ((dat1 V c).after 3 t) = _
  rw [after1_3]
  unfold out1_3
  rw [View.canon_unit_zero origin3]
  simp only [View.ld_unit_zero (S := S16x128x512) origin3, View.ld_unit_zero (S := S16x128) origin2]
  obtain ⟨e0, e1, e2, e3, e4, e5, e6, e7, e8, e9⟩ := block_maps t
  funext j
  show k1_pay1 (iblk1 V c 1 t) (iblk1 V c 2 t) (iblk1 V c 0 t) j
    = affine (V c main_arg0) (V c main_v26) (V c main_v27) (((cfg1.win 3).blk t).view.emb j)
  have hj0 : (j 0).val < 16 := (j 0).isLt
  have hj1 : (j 1).val < 128 := (j 1).isLt
  have hj2 : (j 2).val < 512 := (j 2).isLt
  refine (congrArg (k1_pay1 (iblk1 V c 1 t) (iblk1 V c 2 t) (iblk1 V c 0 t))
    (eq_ix3 (n0 := 16) (n1 := 128) (n2 := 512) j)).trans
    (pay_eq_affine _ _ _ _ _ _ (j 0) (j 1) (j 2) _ ?_ ?_ ?_)
  · show V c main_arg0 (((cfg1.win 0).blk t).view.emb (ix3 (j 0) (j 1) (j 2)))
      = V c main_arg0 (((cfg1.win 3).blk t).view.emb j)
    refine congrArg (V c main_arg0) (funext fun a => Fin.ext ?_)
    match a with
    | ⟨0, _⟩ => show win1_0.index t (0 : Fin 3) * 16 + 1 * (j 0).val = win1_3.index t (0 : Fin 3) * 16 + 1 * (j 0).val; omega
    | ⟨1, _⟩ => show win1_0.index t (1 : Fin 3) * 128 + 1 * (j 1).val = win1_3.index t (1 : Fin 3) * 128 + 1 * (j 1).val; omega
    | ⟨2, _⟩ => show win1_0.index t (2 : Fin 3) * 512 + 1 * (j 2).val = win1_3.index t (2 : Fin 3) * 512 + 1 * (j 2).val; omega
  · show V c main_v26 (((cfg1.win 1).blk t).view.emb (ix2 (j 0) (j 1)))
      = V c main_v26 (ix2 ((((cfg1.win 3).blk t).view.emb j) 0) ((((cfg1.win 3).blk t).view.emb j) 1))
    refine congrArg (V c main_v26) (funext fun a => Fin.ext ?_)
    match a with
    | ⟨0, _⟩ => show win1_1.index t (0 : Fin 2) * 16 + 1 * (j 0).val = win1_3.index t (0 : Fin 3) * 16 + 1 * (j 0).val; omega
    | ⟨1, _⟩ => show win1_1.index t (1 : Fin 2) * 128 + 1 * (j 1).val = win1_3.index t (1 : Fin 3) * 128 + 1 * (j 1).val; omega
  · show V c main_v27 (((cfg1.win 2).blk t).view.emb (ix2 (j 0) (j 1)))
      = V c main_v27 (ix2 ((((cfg1.win 3).blk t).view.emb j) 0) ((((cfg1.win 3).blk t).view.emb j) 1))
    refine congrArg (V c main_v27) (funext fun a => Fin.ext ?_)
    match a with
    | ⟨0, _⟩ => show win1_2.index t (0 : Fin 2) * 16 + 1 * (j 0).val = win1_3.index t (0 : Fin 3) * 16 + 1 * (j 0).val; omega
    | ⟨1, _⟩ => show win1_2.index t (1 : Fin 2) * 128 + 1 * (j 1).val = win1_3.index t (1 : Fin 3) * 128 + 1 * (j 1).val; omega

/-! ## The 64 blocks tile the output -/

/-- Every block index `(q0, 0, q1)` of the output is some grid point's. -/
theorem block_onto : ∀ (q0 : Fin 32) (q1 : Fin 2), ∃ t : Fin cfg1.N, win1_3.index t = ![q0.val, 0, q1.val] :=
  (by decide +kernel : ∀ (q0 : Fin 32) (q1 : Fin 2), ∃ t : Fin grid1.N, win1_3.index t = ![q0.val, 0, q1.val])

/-- An index of the output is in point `t`'s block iff each coordinate is in the block's range on its axis. -/
theorem mem_blk (t : Fin cfg1.N) (i : S512x128x1024.Idx) :
    i ∈ ((cfg1.win 3).blk t).view.set ↔ ∀ a : Fin 3, win1_3.index t a * S16x128x512.size a ≤ (i a).val
      ∧ (i a).val < win1_3.index t a * S16x128x512.size a + S16x128x512.size a := by
  show i ∈ ((View.whole main_v28).slice (win1_3.rect t)).set ↔ _
  rw [View.set_slice_whole, Rect.mem_set_unit]
  exact Iff.rfl

/-- Sample `s`, feature `f`, position `p` lies in the block of the point with block index `(s / 16, 0, p / 512)`,
    and every point writes its block back. -/
theorem covered (i : S512x128x1024.Idx) :
    ∃ t : Fin cfg1.N, (cfg1.win 3).flush t = true ∧ i ∈ ((cfg1.win 3).blk t).view.set := by
  have hi0 : (i 0).val < 512 := (i 0).isLt
  have hi1 : (i 1).val < 128 := (i 1).isLt
  have hi2 : (i 2).val < 1024 := (i 2).isLt
  obtain ⟨t, ht⟩ := block_onto ⟨(i 0).val / 16, by omega⟩ ⟨(i 2).val / 512, by omega⟩
  have q0 : win1_3.index t (0 : Fin 3) = (i 0).val / 16 := congrFun ht 0
  have q1 : win1_3.index t (1 : Fin 3) = 0 := congrFun ht 1
  have q2 : win1_3.index t (2 : Fin 3) = (i 2).val / 512 := congrFun ht 2
  refine ⟨t, flush1_3 t, ?_⟩
  rw [mem_blk]
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 128 ≤ (i 1).val ∧ (i 1).val < win1_3.index t (1 : Fin 3) * 128 + 128; omega
  | ⟨2, _⟩ => show win1_3.index t (2 : Fin 3) * 512 ≤ (i 2).val ∧ (i 2).val < win1_3.index t (2 : Fin 3) * 512 + 512; omega

/-! ## The output array -/

/-- The output of the second pass is `x · scale + shift` of the three arrays as the pass finds them. -/
theorem out_eq (c : Dev nD) :
    (dat1 V c).arrAt 3 cfg1.N = affine (V c main_arg0) (V c main_v26) (V c main_v27) :=
  (dat1 V c).arrAt_eq_of_cover 3 (affine (V c main_arg0) (V c main_v26) (V c main_v27))
    (fun t _ => flushed_eq V c t) covered

end Cert.ClassNorm.Apply

end
-- ==== Proof.Variance.lean ====
/-
  The variance of a class is never negative, so cutting it off at zero changes nothing.

  Over the reals, with `M_s ∈ {0, 1}` the class's column of the one-hot matrix, `n = Σ_s M_s`, `r_s = Σ_p x_sp` and
  `q_s = Σ_p x_sp²`: by Cauchy–Schwarz `r_s² ≤ 1024 · q_s` and `(Σ_s M_s r_s)² ≤ n · Σ_s M_s r_s²`, hence
  `(Σ_s M_s r_s)² ≤ 1024 n · Σ_s M_s q_s`. With `c = max (1024 n, 1)`: if `n = 0` both sums vanish and the variance is
  `0`; otherwise `c = 1024 n` and `Σ M q / c − (Σ M r / c)² = (c · Σ M q − (Σ M r)²) / c² ≥ 0`. Finiteness of `x` is what
  puts every quantity in the reals.

  The two cases are taken at once: `c ≥ 1024 n`, `c > 0` and `Σ M q ≥ 0` give `(Σ M r)² ≤ c · Σ M q`, which is the
  numerator's sign. Each stage is then read at one index `(k, f)` as the coercion of a real (an entry of the one-hot
  matrix is 0 or 1; a row sum of finite values is the real sum; the product with the one-hot matrix is the sum over the
  samples; the count is `max (1024 · Σ_s M_sk, 1)`, a positive real, so the quotient by it is the product with its
  reciprocal), and the real inequality is carried back through the coercion.
-/
import proofs.«409846_j46334107189658_3_alg».proof.Proof.ClassNorm
import Idealize.ShloMosaic.PureOps.Ideal.Laws
import Idealize.ShloMosaic.Lib.IdealHost
import Idealize.ShloMosaic.Lib.Pipeline.Value
import Mathlib.Algebra.Order.BigOperators.Ring.Finset

noncomputable section

namespace Cert.ClassNorm

open Idealize.ShloMosaic Idealize.ShloMosaic.ValueIdx
open Cert.KernelIdeal Cert.KernelIdeal.Facts₀ Cert.KernelIdeal.Facts

variable [Cert.KernelIdeal.Facts]

/-! ## Over the reals -/

/-- For a 0/1 weight `M`, any positive `c` that is at least `(Σ_s M_s) · N`, `N` the number of positions, and
    `r_s = Σ_p x_sp`, `q_s = Σ_p x_sp²`: `0 ≤ Σ M q / c − (Σ M r / c)²`. Cauchy–Schwarz twice: `r_s² ≤ N q_s` on each row and
    `(Σ M r)² ≤ (Σ M) · Σ M r²` over the class (as `M² = M`), so `(Σ M r)² ≤ (Σ M) N · Σ M q ≤ c · Σ M q`, the last step
    because `Σ M q ≥ 0`. -/
theorem var_nonneg_real {ι κ : Type} [Fintype ι] [Fintype κ] (M : ι → ℝ) (hM : ∀ s, M s = 0 ∨ M s = 1)
    (xs : ι → κ → ℝ) (c : ℝ) (hc0 : 0 < c) (hc : (∑ s, M s) * (Fintype.card κ : ℝ) ≤ c) :
    0 ≤ (∑ s, M s * ∑ p, xs s p * xs s p) * (1 / c)
        - ((∑ s, M s * ∑ p, xs s p) * (1 / c)) * ((∑ s, M s * ∑ p, xs s p) * (1 / c)) := by
  have hM0 : ∀ s, 0 ≤ M s := fun s => by rcases hM s with h | h <;> rw [h] <;> norm_num
  have hMM : ∀ s, M s ^ 2 = M s := fun s => by rcases hM s with h | h <;> rw [h] <;> norm_num
  set N : ℝ := (Fintype.card κ : ℝ) with hN
  set r : ι → ℝ := fun s => ∑ p, xs s p with hr
  set q : ι → ℝ := fun s => ∑ p, xs s p * xs s p with hq
  have hq0 : ∀ s, 0 ≤ q s := fun s => Finset.sum_nonneg fun p _ => mul_self_nonneg _
  -- each row: r_s² ≤ N q_s
  have hrow : ∀ s, r s ^ 2 ≤ N * q s := fun s => by
    have h := Finset.sum_mul_sq_le_sq_mul_sq Finset.univ (fun _ : κ => (1 : ℝ)) (xs s)
    simp only [one_mul, one_pow, Finset.sum_const, Finset.card_univ, nsmul_eq_mul, mul_one] at h
    calc r s ^ 2 ≤ N * ∑ p, xs s p ^ 2 := h
      _ = N * q s := by simp only [hq, sq]
  -- over the class: (Σ M r)² ≤ (Σ M) Σ M r²
  have hcls : (∑ s, M s * r s) ^ 2 ≤ (∑ s, M s) * ∑ s, M s * r s ^ 2 := by
    have h := Finset.sum_mul_sq_le_sq_mul_sq Finset.univ M (fun s => M s * r s)
    have e1 : ∑ s, M s * (M s * r s) = ∑ s, M s * r s :=
      Finset.sum_congr rfl fun s _ => by rw [← mul_assoc, ← sq, hMM]
    have e2 : ∑ s, M s ^ 2 = ∑ s, M s := Finset.sum_congr rfl fun s _ => hMM s
    have e3 : ∑ s, (M s * r s) ^ 2 = ∑ s, M s * r s ^ 2 :=
      Finset.sum_congr rfl fun s _ => by rw [mul_pow, hMM]
    rw [e1, e2, e3] at h
    exact h
  have hn0 : 0 ≤ ∑ s, M s := Finset.sum_nonneg fun s _ => hM0 s
  have hB0 : 0 ≤ ∑ s, M s * q s := Finset.sum_nonneg fun s _ => mul_nonneg (hM0 s) (hq0 s)
  have hsum : ∑ s, M s * r s ^ 2 ≤ N * ∑ s, M s * q s := by
    rw [Finset.mul_sum]
    refine Finset.sum_le_sum fun s _ => ?_
    calc M s * r s ^ 2 ≤ M s * (N * q s) := mul_le_mul_of_nonneg_left (hrow s) (hM0 s)
      _ = N * (M s * q s) := by ring
  have key : (∑ s, M s * r s) ^ 2 ≤ c * ∑ s, M s * q s :=
    calc (∑ s, M s * r s) ^ 2 ≤ (∑ s, M s) * ∑ s, M s * r s ^ 2 := hcls
      _ ≤ (∑ s, M s) * (N * ∑ s, M s * q s) := mul_le_mul_of_nonneg_left hsum hn0
      _ = ((∑ s, M s) * N) * ∑ s, M s * q s := by ring
      _ ≤ c * ∑ s, M s * q s := mul_le_mul_of_nonneg_right hc hB0
  have hcne : c ≠ 0 := ne_of_gt hc0
  have e : (∑ s, M s * q s) * (1 / c) - ((∑ s, M s * r s) * (1 / c)) * ((∑ s, M s * r s) * (1 / c))
      = (c * (∑ s, M s * q s) - (∑ s, M s * r s) ^ 2) / (c * c) := by
    field_simp
  rw [e]
  exact div_nonneg (sub_nonneg.mpr key) (mul_pos hc0 hc0).le

/-! ## The stages read at one index -/

/-- The coercion of the reals into the extended reals goes through a finite sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The coercion of the reals into the extended reals keeps maxima. -/
theorem coe_max (a b : ℝ) : ((max a b : ℝ) : EReal) = max (a : EReal) (b : EReal) :=
  EReal.coe_strictMono.monotone.map_max

/-- The counts beside the tables read at `(k, f)`: the count of class `k`. -/
theorem countCols_apply (cnt : FVec Ideal S8 .f32) (k : Fin 8) (f : Fin 128) : countCols cnt (ix2 k f) = cnt (ix1 k) := by
  unfold countCols
  rw [broadcastInDim_apply ![0, 1] bcast_S8x1_S8x128_0_1 _ (ix2 k f) (ix2 k (0 : Fin 1)) (fun a => by
    match a with
    | ⟨0, _⟩ => rfl
    | ⟨1, _⟩ => rfl)]
  rw [broadcastInDim_apply ![0] bcast_S8_S8x1_0 cnt (ix2 k (0 : Fin 1)) (ix1 k) (fun a => by
    match a with
    | ⟨0, _⟩ => rfl)]

/-- The f32 word `0x44800000` is the real 1024. -/
theorem ofBits_1024_f32 : Ideal.ofBits .f32 0x44800000#32 = ((1024 : ℝ) : EReal) := by
  simp [Ideal.ofBits, Ideal.ieee, -EReal.coe_mul]; norm_num

/-- The one-hot operand's index under the contraction: sample on axis 0, class on axis 1. -/
theorem lhs_classSum_0 (i : S8x128.Idx) (q : dot_S512x8_S512x128_S8x128_0_0_1_1_n_n.contr.Idx) :
    (dot_S512x8_S512x128_S8x128_0_0_1_1_n_n.lhsIdx i q 0).val = (q ⟨0, Nat.one_pos⟩).val :=
  dot_S512x8_S512x128_S8x128_0_0_1_1_n_n.lhsIdx_val_of_single rfl i q

theorem lhs_classSum_1 (i : S8x128.Idx) (q : dot_S512x8_S512x128_S8x128_0_0_1_1_n_n.contr.Idx) :
    (dot_S512x8_S512x128_S8x128_0_0_1_1_n_n.lhsIdx i q 1).val = (i 0).val := by
  unfold DotDims.lhsIdx
  rw [dif_neg (show ¬(1 : Fin S512x8.rank) ∈ dot_S512x8_S512x128_S8x128_0_0_1_1_n_n.lhsBatch from List.not_mem_nil),
    dif_pos (show (1 : Fin S512x8.rank) ∈ dot_S512x8_S512x128_S8x128_0_0_1_1_n_n.lhsNonContracting from List.mem_singleton.mpr rfl)]
  rfl

/-- The table operand's index under the contraction: sample on axis 0, feature on axis 1. -/
theorem rhs_classSum_0 (i : S8x128.Idx) (q : dot_S512x8_S512x128_S8x128_0_0_1_1_n_n.contr.Idx) :
    (dot_S512x8_S512x128_S8x128_0_0_1_1_n_n.rhsIdx i q 0).val = (q ⟨0, Nat.one_pos⟩).val :=
  dot_S512x8_S512x128_S8x128_0_0_1_1_n_n.rhsIdx_val_of_single rfl i q

theorem rhs_classSum_1 (i : S8x128.Idx) (q : dot_S512x8_S512x128_S8x128_0_0_1_1_n_n.contr.Idx) :
    (dot_S512x8_S512x128_S8x128_0_0_1_1_n_n.rhsIdx i q 1).val = (i 1).val := by
  unfold DotDims.rhsIdx
  rw [dif_neg (show ¬(1 : Fin S512x128.rank) ∈ dot_S512x8_S512x128_S8x128_0_0_1_1_n_n.rhsBatch from List.not_mem_nil),
    dif_pos (show (1 : Fin S512x128.rank) ∈ dot_S512x8_S512x128_S8x128_0_0_1_1_n_n.rhsNonContracting from List.mem_singleton.mpr rfl)]
  rfl

/-- `Σ_s M[s,k] · r[s,f]` read at `(k, f)`. -/
theorem classSum_apply (prec : Option ContractPrecision) (M : FVec Ideal S512x8 .f32) (r : FVec Ideal S512x128 .f32)
    (k : Fin 8) (f : Fin 128) :
    classSum prec M r (ix2 k f) = ∑ s : Fin 512, M (ix2 s k) * r (ix2 s f) := by
  simp only [classSum, Host.dotGeneral]
  rw [Ideal.dotGeneral_apply,
    ← Equiv.sum_comp (contrEquiv1 dot_S512x8_S512x128_S8x128_0_0_1_1_n_n 512 rfl rfl).symm]
  refine Finset.sum_congr rfl fun s _ => ?_
  have hk := contrEquiv1_symm_val dot_S512x8_S512x128_S8x128_0_0_1_1_n_n 512 rfl rfl s
  have el : dot_S512x8_S512x128_S8x128_0_0_1_1_n_n.lhsIdx (ix2 k f)
      ((contrEquiv1 dot_S512x8_S512x128_S8x128_0_0_1_1_n_n 512 rfl rfl).symm s) = ix2 s k :=
    funext fun a => Fin.ext (by
      match a with
      | ⟨0, _⟩ => exact (lhs_classSum_0 _ _).trans hk
      | ⟨1, _⟩ => exact lhs_classSum_1 _ _)
  have er : dot_S512x8_S512x128_S8x128_0_0_1_1_n_n.rhsIdx (ix2 k f)
      ((contrEquiv1 dot_S512x8_S512x128_S8x128_0_0_1_1_n_n 512 rfl rfl).symm s) = ix2 s f :=
    funext fun a => Fin.ext (by
      match a with
      | ⟨0, _⟩ => exact (rhs_classSum_0 _ _).trans hk
      | ⟨1, _⟩ => exact rhs_classSum_1 _ _)
  rw [el, er]

/-- `c_k` read at `k`. -/
theorem classCount_apply (M : FVec Ideal S512x8 .f32) (k : Fin 8) :
    classCount M (ix1 k) = max ((∑ s : Fin 512, M (ix2 s k)) * ((1024 : ℝ) : EReal)) 1 := by
  unfold classCount
  rw [maximumf_apply, mulf_apply, broadcastInDim_scalar_apply, broadcastInDim_scalar_apply, constant_apply, constant_apply,
    hostReduceAdd_apply, constant_apply, Ideal.ofBits_zero_f32, Ideal.ofBits_one_f32, ofBits_1024_f32,
    Ideal.hostReduceAdd_single reducesTo_S512x8_S8_d0 (by decide), zero_add]
  refine congrArg (fun t => max (t * ((1024 : ℝ) : EReal)) 1) (Finset.sum_congr rfl fun s _ => ?_)
  exact congrArg M (funext fun a => Fin.ext (by match a with | ⟨0, _⟩ => rfl | ⟨1, _⟩ => rfl))

/-! ## The class variance at one index -/

/-- The row sums of a finite `x` are the reals' sums. -/
theorem rowSum_real (x : FVec Ideal S512x128x1024 .f32) (xr : S512x128x1024.Idx → ℝ) (hxr : ∀ i, x i = (xr i : EReal))
    (s : Fin 512) (f : Fin 128) : rowSum x (ix2 s f) = ((∑ p : Fin 1024, xr (ix3 s f p) : ℝ) : EReal) := by
  show ∑ p : Fin 1024, x (ix3 s f p) = _
  rw [← coe_sum]
  exact Finset.sum_congr rfl fun p _ => hxr _

/-- Likewise the row sums of squares. -/
theorem rowSumSq_real (x : FVec Ideal S512x128x1024 .f32) (xr : S512x128x1024.Idx → ℝ) (hxr : ∀ i, x i = (xr i : EReal))
    (s : Fin 512) (f : Fin 128) :
    rowSumSq x (ix2 s f) = ((∑ p : Fin 1024, xr (ix3 s f p) * xr (ix3 s f p) : ℝ) : EReal) := by
  show ∑ p : Fin 1024, x (ix3 s f p) * x (ix3 s f p) = _
  rw [← coe_sum]
  exact Finset.sum_congr rfl fun p _ => by rw [hxr, EReal.coe_mul]

/-- For a 0/1 matrix `M` and a finite `x`, the class variance at `(k, f)` is the coercion of a real that is not negative. -/
theorem classVar_nonneg (prec : Option ContractPrecision) (M : FVec Ideal S512x8 .f32) (hM : ∀ i, M i = 0 ∨ M i = 1)
    (x : FVec Ideal S512x128x1024 .f32) (hx : ∀ i, ∃ r : ℝ, x i = (r : EReal)) (k : Fin 8) (f : Fin 128) :
    0 ≤ classVar prec M (rowSum x) (rowSumSq x) (ix2 k f) := by
  choose xr hxr using hx
  have hMr : ∀ i, ∃ m : ℝ, M i = (m : EReal) ∧ (m = 0 ∨ m = 1) := fun i => by
    rcases hM i with h | h
    · exact ⟨0, by rw [h, EReal.coe_zero], Or.inl rfl⟩
    · exact ⟨1, by rw [h, EReal.coe_one], Or.inr rfl⟩
  choose Mr hMr hMr01 using hMr
  have hS : ∀ (r : FVec Ideal S512x128 .f32) (rr : Fin 512 → ℝ), (∀ s, r (ix2 s f) = (rr s : EReal)) →
      classSum prec M r (ix2 k f) = ((∑ s : Fin 512, Mr (ix2 s k) * rr s : ℝ) : EReal) := fun r rr h => by
    rw [classSum_apply, ← coe_sum]
    exact Finset.sum_congr rfl fun s _ => by rw [hMr, h, EReal.coe_mul]
  have hC : countCols (classCount M) (ix2 k f)
      = ((max ((∑ s : Fin 512, Mr (ix2 s k)) * 1024) 1 : ℝ) : EReal) := by
    rw [countCols_apply, classCount_apply, coe_max, EReal.coe_mul, ← coe_sum, EReal.coe_one]
    exact congrArg (fun t => max (t * ((1024 : ℝ) : EReal)) 1) (Finset.sum_congr rfl fun s _ => hMr _)
  have hc0 : (0 : ℝ) < max ((∑ s : Fin 512, Mr (ix2 s k)) * 1024) 1 := lt_of_lt_of_le one_pos (le_max_right _ _)
  have hreal := var_nonneg_real (fun s : Fin 512 => Mr (ix2 s k)) (fun s => hMr01 _) (fun (s : Fin 512) (p : Fin 1024) => xr (ix3 s f p))
    (max ((∑ s : Fin 512, Mr (ix2 s k)) * 1024) 1) hc0
    (by rw [Fintype.card_fin]; push_cast; exact le_max_left _ _)
  unfold classVar classMean
  rw [subf_apply, mulf_apply, hostDivf_apply, hostDivf_apply, hC,
    hS _ _ (rowSum_real x xr hxr · f), hS _ _ (rowSumSq_real x xr hxr · f),
    Ideal.div_coe hc0.ne', Ideal.div_coe hc0.ne', ← EReal.coe_mul, ← EReal.coe_mul, ← EReal.coe_mul, ← EReal.coe_sub,
    EReal.coe_nonneg]
  exact hreal

/-- Every entry of the one-hot matrix is 0 or 1. -/
theorem oneHot_zero_or_one (lab : IVec S512 32) (i : S512x8.Idx) : oneHot lab i = 0 ∨ oneHot lab i = 1 := by
  unfold oneHot
  show (((IntOp.cmpi .eq _ _ : BitVec 1).toNat : ℝ) : EReal) = 0 ∨ (((IntOp.cmpi .eq _ _ : BitVec 1).toNat : ℝ) : EReal) = 1
  rcases BitVec.eq_zero_or_eq_one (IntOp.cmpi .eq
      (broadcastInDim S512x8 ![0, 1] bcast_S512x1_S512x8_0_1 (broadcastInDim S512x1 ![0] bcast_S512_S512x1_0 lab) i)
      (broadcastInDim S512x8 ![0, 1] bcast_S1x8_S512x8_0_1 (iotaInDim S1x8 32 1) i)) with h | h
  · left; rw [h]; norm_num
  · right; rw [h]; norm_num

/-- For finite `x` the class variance computed from its row sums is never negative: the cut-off at zero is the identity. -/
theorem clampVar_classVar (prec : Option ContractPrecision) (lab : IVec S512 32) (x : FVec Ideal S512x128x1024 .f32)
    (hx : ∀ i, ∃ r : ℝ, x i = (r : EReal)) :
    clampVar (classVar prec (oneHot lab) (rowSum x) (rowSumSq x)) = classVar prec (oneHot lab) (rowSum x) (rowSumSq x) := by
  funext i
  obtain ⟨k, f, rfl⟩ : ∃ (k : Fin 8) (f : Fin 128), i = ix2 k f := ⟨i 0, i 1, eq_ix2 i⟩
  unfold clampVar
  rw [maximumf_apply, broadcastInDim_scalar_apply, constant_apply, Ideal.ofBits_zero_f32]
  exact max_eq_left (classVar_nonneg prec (oneHot lab) (oneHot_zero_or_one lab) x hx k f)

end Cert.ClassNorm

end
-- ==== Proof.Domain.lean ====
/-
  What the precondition gives: every entry of `x` is a real number, and every label lies in `0 … 7`.

  With the labels in range no label is negative, so the row numbers are the labels themselves, every row number lies
  inside the 8-row tables, and the kernel program's guarded row pick is the plain one.

  An extended real whose absolute value `max a (-a)` lies strictly below `+∞` is neither infinity, hence a real. The
  row guard is a reduce by `and` from 1 over each sample's one row number; a fold by `and` from 1 over words that are
  all 1 is 1, and each word is the conjunction `0 ≤ lab s ≤ 7`.
-/
import proofs.«409846_j46334107189658_3_alg».proof.Proof.ClassNorm
import proofs.«409846_j46334107189658_3_alg».proof.Pre_finite_inputs
import Idealize.ShloMosaic.Lib.ReduceAll
import Idealize.ShloMosaic.Lib.StableHlo.Predicate
import Idealize.ShloMosaic.Lib.Pipeline.Value

noncomputable section

namespace Cert.ClassNorm

open Idealize.ShloMosaic Idealize.ShloMosaic.ValueIdx
open Cert.KernelIdeal Cert.KernelIdeal.Facts₀ Cert.KernelIdeal.Facts

variable [Cert.KernelIdeal.Facts] [Cert.Pre_finite_inputs.Facts]

/-- The pattern `0x7F800000` is `+∞`. -/
private theorem ofBits_inf : Ideal.ofBits .f32 0x7F800000#32 = (⊤ : EReal) := by simp [Ideal.ofBits, Ideal.ieee]

/-- The precondition read back: `max (x i) (-x i) < +∞` at every index (the conjunct `jnp.all(|x| < inf)`), and
    `0 ≤ lab s < 8` as signed words at every sample (the conjunct on the labels). Each `jnp.all` is a reduce by `and`
    into one index that came out 1, so every element it ran over is 1. -/
private theorem pre_decode (x : FVec Ideal S512x128x1024 .f32) (lab : IVec S512 32) (w b : FVec Ideal S8x128 .f32)
    (h : Cert.Pre_finite_inputs.fn (F := Ideal) x lab w b = fun _ => 1#1) :
    (∀ i, max (x i) (-(x i)) < (⊤ : EReal)) ∧ ∀ s, 0 ≤ (lab s).toInt ∧ (lab s).toInt < 8 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h1, hl⟩ := IntOp.andi_eq_one.1 h0
  obtain ⟨h2, -⟩ := IntOp.andi_eq_one.1 h1
  obtain ⟨hx, -⟩ := IntOp.andi_eq_one.1 h2
  clear h0 h1 h2 h
  refine ⟨fun i => ?_, fun s => ?_⟩
  · have e := Host.reduce_andi_all _ _ _ _ _ hx i
    clear hx hl
    change Ideal.cmp .olt (max (x i) (-(x i))) (Ideal.ofBits .f32 0x7F800000#32) = 1#1 at e
    rw [ofBits_inf] at e
    simp only [Ideal.cmp] at e
    rw [StableHlo.Predicate.ofBool_eq_one_iff, decide_eq_true_eq] at e
    exact e
  · have e := Host.reduce_andi_all _ _ _ _ _ hl s
    clear hx hl
    obtain ⟨e1, e2⟩ := IntOp.andi_eq_one.1 e
    change IntOp.cmpi .sge (lab s) 0#32 = 1#1 at e1
    change IntOp.cmpi .slt (lab s) 8#32 = 1#1 at e2
    have a1 := IntOp.cmpi_sge.1 e1
    have a2 := IntOp.cmpi_slt.1 e2
    rw [show (0#32 : BitVec 32).toInt = 0 from by decide] at a1
    rw [show (8#32 : BitVec 32).toInt = 8 from by decide] at a2
    exact ⟨a1, a2⟩

/-- Under the precondition every entry of `x` is a real number. -/
theorem x_real (x : FVec Ideal S512x128x1024 .f32) (lab : IVec S512 32) (w b : FVec Ideal S8x128 .f32)
    (h : Cert.Pre_finite_inputs.fn (F := Ideal) x lab w b = fun _ => 1#1) : ∀ i, ∃ r : ℝ, x i = (r : EReal) := by
  intro i
  have hi := (pre_decode x lab w b h).1 i
  generalize x i = a at hi
  induction a using EReal.rec with
  | bot => simp at hi
  | coe r => exact ⟨r, rfl⟩
  | top => simp at hi

/-- A fold by `and` from 1 over words that are all 1 is 1. -/
private theorem foldl_andi_one {ι : Type} (f : ι → BitVec 1) : ∀ (l : List ι), (∀ n ∈ l, f n = 1#1) →
    l.foldl (fun r n => IntOp.andi r (f n)) 1#1 = 1#1
  | [], _ => rfl
  | a :: l, hl => by
    rw [List.foldl_cons, hl a (List.mem_cons.2 (Or.inl rfl)), show IntOp.andi (1#1 : BitVec 1) 1#1 = 1#1 from rfl]
    exact foldl_andi_one f l fun n hn => hl n (List.mem_cons_of_mem _ hn)

/-- With no label negative the row numbers are the labels. -/
private theorem rowIdx_apply (lab : IVec S512 32) (hlab : ∀ s, 0 ≤ (lab s).toInt) (p : Fin 512) (q : Fin 1) :
    rowIdx lab (ix2 p q) = lab (ix1 p) := by
  unfold rowIdx
  rw [broadcastInDim_apply _ _ _ _ (ix1 p) (by intro a; match a with | ⟨0, _⟩ => rfl), select_apply]
  have hc : cmpi .slt lab (broadcastInDim S512 ![] bcast_S_S512 (constantI S_ 32 0#32)) (ix1 p) = 0#1 := by
    change IntOp.cmpi .slt (lab (ix1 p)) 0#32 = 0#1
    refine eq_zero_of_ne_one fun h1 => ?_
    have a1 := IntOp.cmpi_slt.1 h1
    rw [show (0#32 : BitVec 32).toInt = 0 from by decide] at a1
    have := hlab (ix1 p)
    omega
  rw [hc, select_zero]

/-- With every label in `0 … 7` every row number lies inside the table. -/
private theorem rowInside_rowIdx (lab : IVec S512 32) (hlab : ∀ s, 0 ≤ (lab s).toInt ∧ (lab s).toInt < 8) (s : S512.Idx) :
    rowInside (rowIdx lab) s = 1#1 := by
  unfold rowInside
  rw [Host.reduce_eq_foldl]
  refine foldl_andi_one _ _ fun i _ => ?_
  obtain ⟨p, q, rfl⟩ : ∃ (p : Fin 512) (q : Fin 1), i = ix2 p q := ⟨i 0, i 1, eq_ix2 i⟩
  change IntOp.andi (IntOp.cmpi .sge (rowIdx lab (ix2 p q)) 0#32) (IntOp.cmpi .sle (rowIdx lab (ix2 p q)) 7#32) = 1#1
  rw [rowIdx_apply lab (fun s => (hlab s).1) p q, IntOp.andi_eq_one, IntOp.cmpi_sge, IntOp.cmpi_sle,
    show (0#32 : BitVec 32).toInt = 0 from by decide, show (7#32 : BitVec 32).toInt = 7 from by decide]
  have := hlab (ix1 p)
  omega

/-- Under the precondition the guarded row pick is the plain row pick: every row number is a label in `0 … 7`. -/
theorem takeRowsFill_eq (x : FVec Ideal S512x128x1024 .f32) (lab : IVec S512 32) (w b : FVec Ideal S8x128 .f32)
    (h : Cert.Pre_finite_inputs.fn (F := Ideal) x lab w b = fun _ => 1#1) (tbl : FVec Ideal S8x128 .f32) :
    takeRowsFill tbl (rowIdx lab) = takeRows tbl (rowIdx lab) := by
  have hl := (pre_decode x lab w b h).2
  unfold takeRowsFill
  funext j
  obtain ⟨p, q, rfl⟩ : ∃ (p : Fin 512) (q : Fin 128), j = ix2 p q := ⟨j 0, j 1, eq_ix2 j⟩
  rw [select_apply, broadcastInDim_apply _ _ _ _ (ix1 p) (by intro a; match a with | ⟨0, _⟩ => rfl),
    rowInside_rowIdx lab hl, select_one]

end Cert.ClassNorm

end
-- ==== Proof.Result.lean ====
/-
  The two results in the shared terms, and why they are equal under the precondition.

  Both are `x · scale[lab s] + shift[lab s]`. The kernel's program differs from the reference in two places: it cuts the
  class variance off at zero before the inverse deviation, and its row pick is guarded. Under the precondition the
  variance is never negative (every entry of `x` is real) and every row number lies inside the tables (every label is in
  `0 … 7`), so both differences vanish. The precision the kernel's program asks of its class sums plays no role on
  exact numbers.
-/
import proofs.«409846_j46334107189658_3_alg».proof.Proof.ClassNorm
import proofs.«409846_j46334107189658_3_alg».proof.Proof.Variance
import proofs.«409846_j46334107189658_3_alg».proof.Proof.Domain

noncomputable section

namespace Cert.ClassNorm

open Idealize.ShloMosaic Idealize.ShloMosaic.ValueIdx
open Cert.KernelIdeal Cert.KernelIdeal.Facts₀ Cert.KernelIdeal.Facts

variable [Cert.KernelIdeal.Facts] [Cert.Pre_finite_inputs.Facts]

/-- The reference's result: the tables from the uncut variance, the plain row pick. -/
def refResult (x : FVec Ideal S512x128x1024 .f32) (lab : IVec S512 32) (w b : FVec Ideal S8x128 .f32) :
    FVec Ideal S512x128x1024 .f32 :=
  affine x
    (takeRows (scaleTbl (invStd (classVar none (oneHot lab) (rowSum x) (rowSumSq x))) w) (rowIdx lab))
    (takeRows (shiftTbl (classMean none (oneHot lab) (rowSum x)) (invStd (classVar none (oneHot lab) (rowSum x) (rowSumSq x))) w b)
      (rowIdx lab))

/-- The kernel program's result: the tables from the cut-off variance, the guarded row pick. -/
def kernelResult (x : FVec Ideal S512x128x1024 .f32) (lab : IVec S512 32) (w b : FVec Ideal S8x128 .f32) :
    FVec Ideal S512x128x1024 .f32 :=
  affine x
    (takeRowsFill (kScale (oneHot lab) (rowSum x) (rowSumSq x) w) (rowIdx lab))
    (takeRowsFill (kShift (oneHot lab) (rowSum x) (rowSumSq x) w b) (rowIdx lab))

/-- On exact numbers a class sum is the same sum whatever precision was asked for. -/
theorem classSum_prec (prec : Option ContractPrecision) (M : FVec Ideal S512x8 .f32) (r : FVec Ideal S512x128 .f32) :
    classSum prec M r = classSum none M r := by
  funext j
  simp only [classSum, Host.dotGeneral]
  rw [Ideal.dotGeneral_apply, Ideal.dotGeneral_apply]

/-- Under the precondition the two results are one. -/
theorem kernelResult_eq (x : FVec Ideal S512x128x1024 .f32) (lab : IVec S512 32) (w b : FVec Ideal S8x128 .f32)
    (h : Cert.Pre_finite_inputs.fn (F := Ideal) x lab w b = fun _ => 1#1) :
    kernelResult x lab w b = refResult x lab w b := by
  unfold kernelResult refResult kScale kShift
  rw [takeRowsFill_eq x lab w b h, takeRowsFill_eq x lab w b h,
    clampVar_classVar (some .fp32) lab x (x_real x lab w b h)]
  unfold classVar classMean
  rw [classSum_prec (some .fp32), classSum_prec (some .fp32)]

end Cert.ClassNorm

end
-- ==== Proof.KernelValue.lean ====
/-
  The kernel program's result array as one function of its argument arrays.

  The second pass's output is `x · scale + shift` of what it finds; it finds `x` as launched and the scale and shift
  rows the host operations built from the first pass's two outputs; those outputs are the row sums of `x` and of `x²`.
  Put together, the result array is `kernelResult` of the launch contents.
-/
import proofs.«409846_j46334107189658_3_alg».proof.Proof.HostChain
import proofs.«409846_j46334107189658_3_alg».proof.Proof.RowSums
import proofs.«409846_j46334107189658_3_alg».proof.Proof.Apply
import proofs.«409846_j46334107189658_3_alg».proof.Proof.Result
import proofs.«409846_j46334107189658_3_alg».proof.Proof.Gen.Pre_finite_inputs

noncomputable section

namespace Cert.ClassNorm.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- After the first pass its first output holds the row sums of `x` as launched. -/
theorem sums_after_pass1 (c : Dev nD) :
    W1 m ρ c (Proc.devRef .tc main_v0_0) = rowSum (m ((c : Thread nD τ).loc main_arg0)) :=
  (W1_arr m ρ c 1).trans (RowSums.sums (V0 m ρ) c)

/-- And its second output the row sums of the squares. -/
theorem sumSqs_after_pass1 (c : Dev nD) :
    W1 m ρ c (Proc.devRef .tc main_v0_1) = rowSumSq (m ((c : Thread nD τ).loc main_arg0)) :=
  (W1_arr m ρ c 2).trans (RowSums.sumSqs (V0 m ρ) c)

/-- The result array at the last boundary is `kernelResult` of the launch contents. -/
theorem out_value (c : Dev nD) :
    W7 m ρ c (Proc.devRef .tc main_v28)
      = kernelResult (m ((c : Thread nD τ).loc main_arg0)) (m ((c : Thread nD τ).loc main_arg1))
          (m ((c : Thread nD τ).loc main_arg2)) (m ((c : Thread nD τ).loc main_arg3)) := by
  refine (W7_arr m ρ c 3).trans ((Apply.out_eq (V6 m ρ) c).trans ?_)
  rw [Chain.x_at_pass2 m ρ c, Chain.scale_rows m ρ c, Chain.shift_rows m ρ c, Chain.labels_after_pass1 m ρ c,
    Chain.weight_after_pass1 m ρ c, Chain.bias_after_pass1 m ρ c, sums_after_pass1 m ρ c, sumSqs_after_pass1 m ρ c]
  rfl

end Cert.ClassNorm.Kernel

end
-- ==== Proof.RefSide.lean ====
/-
  The reference's result, named in the shared terms.

  The reference sums `x` and `x²` over the positions with the host's reduction from zero, which on exact numbers is
  the plain sum; from there on its operations are, one for one, the shared stages, and its last two operations lay the
  picked scale and shift rows along the positions and apply them.
-/
import proofs.«409846_j46334107189658_3_alg».proof.Proof.Gen.ReferenceIdeal.Run
import proofs.«409846_j46334107189658_3_alg».proof.Proof.Gen.KernelIdeal
import proofs.«409846_j46334107189658_3_alg».proof.Proof.Gen.Pre_finite_inputs
import proofs.«409846_j46334107189658_3_alg».proof.Proof.Result
import Idealize.ShloMosaic.PureOps.Ideal.Laws
import Idealize.ShloMosaic.Lib.IdealHost
import Idealize.ShloMosaic.Lib.Pipeline.Value

noncomputable section

namespace Cert.ClassNorm.Ref

open Idealize.ShloMosaic Idealize.ShloMosaic.ValueIdx Idealize.ShloMosaic.TcCoe Idealize.SL.Sem
open Cert.KernelIdeal (S512x128x1024 S512x128 S512x128 S8x128 S512 S_)

/-- The inserted coordinate: an index of the `[512, 128]` sums with a position put back is an index of `x`. -/
theorem lift_pos (h : S512x128x1024.Reduces [2] S512x128) (s : Fin 512) (f : Fin 128) (p : Fin 1024) :
    h.lift (ix2 s f) p = ix3 s f p := by
  funext a
  apply Fin.ext
  match a with
  | ⟨0, _⟩ => rfl
  | ⟨1, _⟩ => rfl
  | ⟨2, _⟩ => rfl

/-- The host's sum of `x` over the positions, started from zero, is the row sum. -/
theorem hostRowSum (x : FVec Ideal S512x128x1024 .f32) (h' : S512x128x1024.ReducesTo [2] S512x128) (hu : 0 < S_.numel) :
    Host.reduceAdd x (constant S_ .f32 0x00000000#32) h' hu = rowSum x := by
  funext j
  obtain ⟨s, f, rfl⟩ : ∃ (s : Fin 512) (f : Fin 128), j = ix2 s f := ⟨j 0, j 1, eq_ix2 j⟩
  have h : S512x128x1024.Reduces [2] S512x128 := by decide
  rw [hostReduceAdd_apply, Ideal.hostReduceAdd_single h' h, constant_apply, Ideal.ofBits_zero_f32, zero_add]
  exact Finset.sum_congr rfl fun p _ => congrArg x (lift_pos h s f p)

/-- The host's sum of `x²` over the positions, started from zero, is the row sum of the squares. -/
theorem hostRowSumSq (x : FVec Ideal S512x128x1024 .f32) (h' : S512x128x1024.ReducesTo [2] S512x128) (hu : 0 < S_.numel) :
    Host.reduceAdd (mulf x x) (constant S_ .f32 0x00000000#32) h' hu = rowSumSq x := by
  funext j
  obtain ⟨s, f, rfl⟩ : ∃ (s : Fin 512) (f : Fin 128), j = ix2 s f := ⟨j 0, j 1, eq_ix2 j⟩
  have h : S512x128x1024.Reduces [2] S512x128 := by decide
  rw [hostReduceAdd_apply, Ideal.hostReduceAdd_single h' h, constant_apply, Ideal.ofBits_zero_f32, zero_add]
  exact Finset.sum_congr rfl fun p _ => by rw [mulf_apply, lift_pos h s f p]

/-- A `[512, 128]` table laid along a unit third axis and then along the 1024 positions reads, at `(s, f, p)`, its
    entry `(s, f)`. -/
theorem spread_apply (t : FVec Ideal S512x128 .f32)
    (h1 : S512x128.BroadcastsInDim Cert.ReferenceIdeal.S512x128x1 ![0, 1])
    (h2 : Cert.ReferenceIdeal.S512x128x1.BroadcastsInDim S512x128x1024 ![0, 1, 2]) (s : Fin 512) (f : Fin 128) (p : Fin 1024) :
    broadcastInDim S512x128x1024 ![0, 1, 2] h2 (broadcastInDim Cert.ReferenceIdeal.S512x128x1 ![0, 1] h1 t) (ix3 s f p) = t (ix2 s f) := by
  rw [broadcastInDim_apply ![0, 1, 2] h2 _ (ix3 s f p) (ix3 s f (0 : Fin 1)) (fun a => by
    match a with
    | ⟨0, _⟩ => rfl
    | ⟨1, _⟩ => rfl
    | ⟨2, _⟩ => rfl)]
  exact broadcastInDim_apply ![0, 1] h1 t (ix3 s f (0 : Fin 1)) (ix2 s f) (fun a => by
    match a with
    | ⟨0, _⟩ => rfl
    | ⟨1, _⟩ => rfl)

/-- The reference's last operations: `x` times the spread scale rows plus the spread shift rows is `affine`. -/
theorem spread_affine (x : FVec Ideal S512x128x1024 .f32) (sc sh : FVec Ideal S512x128 .f32)
    (h1 : S512x128.BroadcastsInDim Cert.ReferenceIdeal.S512x128x1 ![0, 1])
    (h2 : Cert.ReferenceIdeal.S512x128x1.BroadcastsInDim S512x128x1024 ![0, 1, 2]) :
    addf (mulf x (broadcastInDim S512x128x1024 ![0, 1, 2] h2 (broadcastInDim Cert.ReferenceIdeal.S512x128x1 ![0, 1] h1 sc)))
      (broadcastInDim S512x128x1024 ![0, 1, 2] h2 (broadcastInDim Cert.ReferenceIdeal.S512x128x1 ![0, 1] h1 sh)) = affine x sc sh := by
  funext i
  obtain ⟨s, f, p, rfl⟩ : ∃ (s : Fin 512) (f : Fin 128) (p : Fin 1024), i = ix3 s f p := ⟨i 0, i 1, i 2, eq_ix3 i⟩
  rw [addf_apply, mulf_apply, spread_apply sc h1 h2 s f p, spread_apply sh h1 h2 s f p]
  rfl

/-- The reference's result is `refResult` of its argument arrays. -/
theorem result_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v45 (F := Ideal) m' c
      = refResult (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) := by
  unfold Cert.ReferenceIdeal.Value.res_main_v45
  rw [hostRowSumSq (m' ((c.tc : Thread Cert.ReferenceIdeal.nD Cert.ReferenceIdeal.τ).loc Cert.ReferenceIdeal.main_arg0)),
    hostRowSum (m' ((c.tc : Thread Cert.ReferenceIdeal.nD Cert.ReferenceIdeal.τ).loc Cert.ReferenceIdeal.main_arg0))]
  refine (spread_affine _ _ _ _ _).trans ?_
  rfl

end Cert.ClassNorm.Ref

end
-- ==== Proof.lean ====
/-
  Per-class batch normalisation in two passes against its one-expression reference, over the extended reals.

  The kernel's program sums `x` and `x²` over the positions in a first pass, builds per-class mean, variance, scale and
  shift tables on the host through the one-hot matrix of the labels, picks each sample's rows, and applies
  `x · scale + shift` in a second pass; the reference computes the same tables from the same sums and applies them in
  one expression. The two differ only where the kernel's program cuts the variance off at zero and guards its row pick;
  under the precondition (finite inputs, labels in `0 … 7`) the variance is never negative (Cauchy–Schwarz) and every
  row number lies inside the tables, so both results are `refResult` of the arguments.

  The three frames are the generated runs; the idealization rewrote nothing, so `preserves` is trivial.
-/
import proofs.«409846_j46334107189658_3_alg».proof.Defs
import proofs.«409846_j46334107189658_3_alg».proof.Proof.Gen.Kernel
import proofs.«409846_j46334107189658_3_alg».proof.Proof.Gen.Kernel.Skeleton
import proofs.«409846_j46334107189658_3_alg».proof.Proof.Gen.Kernel.Launch
import proofs.«409846_j46334107189658_3_alg».proof.Proof.Gen.Kernel.Points
import proofs.«409846_j46334107189658_3_alg».proof.Proof.Gen.Kernel.Frame
import proofs.«409846_j46334107189658_3_alg».proof.Proof.Gen.KernelIdeal
import proofs.«409846_j46334107189658_3_alg».proof.Proof.Gen.KernelIdeal.Skeleton
import proofs.«409846_j46334107189658_3_alg».proof.Proof.Gen.KernelIdeal.Launch
import proofs.«409846_j46334107189658_3_alg».proof.Proof.Gen.KernelIdeal.Points
import proofs.«409846_j46334107189658_3_alg».proof.Proof.Gen.KernelIdeal.Frame
import proofs.«409846_j46334107189658_3_alg».proof.Proof.Gen.ReferenceIdeal
import proofs.«409846_j46334107189658_3_alg».proof.Proof.Gen.ReferenceIdeal.Run
import proofs.«409846_j46334107189658_3_alg».proof.Proof.Gen.Pre_finite_inputs
import proofs.«409846_j46334107189658_3_alg».proof.Proof.KRun
import proofs.«409846_j46334107189658_3_alg».proof.Proof.KernelValue
import proofs.«409846_j46334107189658_3_alg».proof.Proof.RefSide
import Idealize.ShloMosaic.Adequacy
import Idealize.ShloMosaic.Init

noncomputable section

namespace Cert.Proof

open Idealize.ShloMosaic Idealize.SL.Sem Cert.ClassNorm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with `refResult` of arguments that agree: the kernel's by its run and `kernelResult_eq` under
    the precondition, the reference's by its run. -/
theorem algebraic : Cert.algebraic_KernelIdeal_ReferenceIdeal := by
  intro m ρ m' ρ' hpre hagree
  refine ⟨fun c => kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Kernel.out_value m ρ c), (h c).2⟩) (Cert.KernelIdeal.Gen.run_out m ρ)
  · refine (θ_run Cert.ReferenceIdeal.defs _ _).mono (fun r h c => ⟨(h c).1.trans ?_, (h c).2⟩)
      (Cert.ReferenceIdeal.Value.run (F := Ideal) m' ρ')
    rw [Ref.result_eq, (hagree c).1, (hagree c).2.1, (hagree c).2.2.1, (hagree c).2.2.2]
    exact (kernelResult_eq _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
